-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128 .f32) (main_arg8 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S1 .f32) (main_arg6 : FVec F S128 .f32) (main_arg7 : FVec F S128 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S1x1 : Shape := ⟨2, ![1, 1]⟩

abbrev nBuf : Space → Nat
  | .hbm => 63
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S128, .f32⟩
  | .hbm, ⟨7, _⟩ => ⟨S128, .f32⟩
  | .hbm, ⟨8, _⟩ => ⟨S1, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000x128, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .bf16⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S1x1, .f32⟩
  | .hbm, ⟨48, _⟩ => ⟨S50000x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x1, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x1, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x1, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_v27_2 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem6_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S5000x128_S128 : S5000x128.Reduces [0] S128
  bcast_S_S1x128 : S_.BroadcastsInDim S1x128 (![] : Fin 0 → Fin S1x128.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v27_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S128, .f32⟩
  | .hbm, ⟨7, _⟩ => ⟨S128, .f32⟩
  | .hbm, ⟨8, _⟩ => ⟨S1, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .i1⟩
  | .hbm, ⟨55, _⟩ => ⟨S1x1, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .i1⟩
  | .hbm, ⟨92, _⟩ => ⟨S1x1, .f32⟩
  | .hbm, ⟨93, _⟩ => ⟨S50000x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The pointwise functions the three kernels and the reference share, on the extended reals, and the shape of the
  kernel's ordered sum across its ten row blocks.
-/
import Mathlib.Data.EReal.Basic
import Mathlib.Algebra.BigOperators.Group.Finset.Basic
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An extended real that is a real number. -/
def IsReal (x : EReal) : Prop := ∃ r : ℝ, x = (r : EReal)

/-- The parametric rectifier: `x` where `0 ≤ x`, else `a · x`. -/
def prelu (a x : EReal) : EReal :=
  Scalar.select (Ideal.cmp .oge x (Ideal.ofBits .f32 0x00000000#32)) x (a * x)

/-- The graph-convolution activation at one element: the aggregate scaled by the destination norm, plus the bias,
    rectified with slope `a`. -/
def act (agg nd b a : EReal) : EReal := prelu a (agg * nd + b)

/-- Batch normalisation and the second rectifier at one element: `(x − mean) · rsqrt(var + ε) · γ + β`, rectified
    with slope `a`; `ε` is the f32 nearest `1e-5`. -/
def bn (x mean var g bt a : EReal) : EReal :=
  prelu a ((x - mean) * Ideal.rsqrt (var + Ideal.ofBits .f32 0x3727C5AC#32) * g + bt)

/-- The ordered sum of partial sums `g 0, g 1, …` from zero: `((0 + g 0) + g 1) + …`. -/
def chain (g : ℕ → EReal) : ℕ → EReal
  | 0 => 0 + g 0
  | n + 1 => chain g n + g (n + 1)

/-- A function on the 50000 rows, extended by zero to every natural number. -/
def ext (f : Fin 50000 → EReal) (n : ℕ) : EReal := if h : n < 50000 then f ⟨n, h⟩ else 0

/-- The divisor `50000.0` as an f32 word. -/
abbrev c50000 : EReal := Ideal.ofBits .f32 0x47435000#32

end Cert.Spec

end
-- ==== Proof.Algebra.lean ====
/-
  Extended-real algebra for the bridge. Real-valuedness is closed under the operations the programs use; the ordered
  sum over ten 5000-row blocks is the plain sum over the 50000 rows; and for real data the mean of squared deviations
  is the mean of squares minus the squared mean (the quotient by 50000 is the product with 1/50000 on every extended
  real, so both sides are one polynomial identity over the reals).
-/
import proofs.«154972_j25031069401690_1_alg».proof.Proof.Spec
import Mathlib.Data.EReal.Operations
import Mathlib.Algebra.BigOperators.Fin
import Mathlib.Tactic.Ring
import Mathlib.Tactic.Linarith
import Mathlib.Tactic.NormNum

noncomputable section

open scoped BigOperators

namespace Cert.Spec

open Idealize.ShloMosaic

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
/-- The larger of two reals is one of them. -/
theorem IsReal.max {x y : EReal} (hx : IsReal x) (hy : IsReal y) : IsReal (max x y) := by
  rcases le_total x y with h | h
  · rw [max_eq_right h]; exact hy
  · rw [max_eq_left h]; exact hx
theorem IsReal.sum {ι : Type} (s : Finset ι) (f : ι → EReal) (hf : ∀ i ∈ s, IsReal (f i)) : IsReal (∑ i ∈ s, f i) :=
  Finset.sum_induction f IsReal (fun _ _ ha hb => ha.add hb) IsReal.zero hf
/-- A natural number, read as an extended real, is a real. -/
theorem IsReal.natCast (n : ℕ) : IsReal (n : EReal) := ⟨(n : ℝ), EReal.coe_natCast.symm⟩
/-- The larger of 1 and anything is at least 1. -/
theorem one_le_max_one (x : EReal) : (1 : EReal) ≤ max 1 x := le_max_left 1 x
/-- The reciprocal square root of a real that is at least 1 is a real. -/
theorem IsReal.rsqrt {x : EReal} (hx : IsReal x) (h1 : 1 ≤ x) : IsReal (Ideal.rsqrt x) := by
  obtain ⟨r, rfl⟩ := hx
  have hr : (1 : ℝ) ≤ r := by exact_mod_cast h1
  rw [Ideal.rsqrt_coe, if_neg (by linarith), if_neg (by linarith)]
  exact ⟨_, rfl⟩
theorem IsReal.prelu {a x : EReal} (ha : IsReal a) (hx : IsReal x) : IsReal (prelu a x) := by
  unfold Cert.Spec.prelu Scalar.select
  split_ifs
  · exact hx
  · exact ha.mul hx
theorem IsReal.act {agg nd b a : EReal} (h1 : IsReal agg) (h2 : IsReal nd) (h3 : IsReal b) (h4 : IsReal a) : IsReal (act agg nd b a) :=
  IsReal.prelu h4 ((h1.mul h2).add h3)
/-- The f32 words for 0 and 1 denote 0 and 1. -/
theorem ofBits_zero : Ideal.ofBits .f32 0x00000000#32 = 0 := Ideal.ofBits_zero_f32
theorem ofBits_one : Ideal.ofBits .f32 0x3F800000#32 = 1 := by
  simp [Ideal.ofBits, Ideal.ieee, -EReal.coe_mul]
  norm_num
/-- The f32 word 0x47435000 denotes 50000: exponent field 142, fraction field 4411392, so (2^23 + 4411392) · 2^(142 − 127 − 23). -/
theorem c50000_eq : c50000 = ((50000 : ℝ) : EReal) := by
  simp [c50000, Ideal.ofBits, Ideal.ieee, -EReal.coe_mul]
  norm_num
/-- The f32 word with all exponent bits set and a zero fraction denotes +∞. -/
theorem ofBits_inf : Ideal.ofBits .f32 0x7F800000#32 = ⊤ := by
  simp [Ideal.ofBits, Ideal.ieee]
/-- A finite |x| < +∞ test: an extended real whose absolute value is below the f32 +∞ word's value is a real. -/
theorem isReal_of_abs_lt (x : EReal) (h : max x (-x) < Ideal.ofBits .f32 0x7F800000#32) : IsReal x := by
  rw [ofBits_inf] at h
  induction x using EReal.rec with
  | bot => rw [EReal.neg_bot, max_eq_right bot_le] at h; exact absurd h (lt_irrefl _)
  | coe r => exact ⟨r, rfl⟩
  | top => rw [max_eq_left (by rw [EReal.neg_top]; exact bot_le)] at h; exact absurd h (lt_irrefl _)

/-- The ordered sum from zero is the plain sum of the first n+1 terms. -/
theorem chain_eq_sum_range (g : ℕ → EReal) (n : ℕ) : chain g n = ∑ t ∈ Finset.range (n + 1), g t := by
  induction n with
  | zero => simp only [chain, zero_add, Finset.range_one, Finset.sum_singleton]
  | succ n ih => rw [chain, ih, Finset.sum_range_succ _ (n + 1)]

/-- The sum over m consecutive blocks of k terms each is the sum of the first k·m terms. -/
theorem sum_blocks_range (F : ℕ → EReal) (k m : ℕ) :
    ∑ t ∈ Finset.range m, ∑ r ∈ Finset.range k, F (k * t + r) = ∑ i ∈ Finset.range (k * m), F i := by
  induction m with
  | zero => simp only [Finset.range_zero, Finset.sum_empty, Nat.mul_zero]
  | succ m ih => rw [Finset.sum_range_succ, ih, Nat.mul_succ, Finset.sum_range_add]

/-- The ordered sum over the ten blocks of the blocks' sums is the sum over all rows. -/
theorem chain_blocks (F : ℕ → EReal) :
    chain (fun t => ∑ r : Fin 5000, F (5000 * t + r.val)) 9 = ∑ i : Fin 50000, F i.val := by
  rw [chain_eq_sum_range, Fin.sum_univ_eq_sum_range (fun i => F i) 50000]
  have h : ∀ t, ∑ r : Fin 5000, F (5000 * t + r.val) = ∑ r ∈ Finset.range 5000, F (5000 * t + r) :=
    fun t => Fin.sum_univ_eq_sum_range (fun r => F (5000 * t + r)) 5000
  simp only [h]
  exact sum_blocks_range F 5000 10

theorem ext_val (f : Fin 50000 → EReal) (i : Fin 50000) : ext f i.val = f i := by
  unfold Cert.Spec.ext
  rw [dif_pos i.isLt]

theorem chain_ext (f : Fin 50000 → EReal) :
    chain (fun t => ∑ r : Fin 5000, ext f (5000 * t + r.val)) 9 = ∑ i : Fin 50000, f i := by
  rw [chain_blocks (ext f)]
  exact Finset.sum_congr rfl fun i _ => ext_val f i

/-- The inclusion of the reals commutes with finite sums. -/
theorem coe_sum_real {ι : Type} (s : Finset ι) (g : ι → ℝ) : ((∑ i ∈ s, g i : ℝ) : EReal) = ∑ i ∈ s, (g i : EReal) := by
  induction s using Finset.cons_induction with
  | empty => simp only [Finset.sum_empty, EReal.coe_zero]
  | cons a s ha ih => rw [Finset.sum_cons, Finset.sum_cons, EReal.coe_add, ih]

/-- Over the reals: the sum of squared deviations from any μ, expanded. -/
theorem sum_sq_dev (g : Fin 50000 → ℝ) (μ : ℝ) :
    ∑ i, (g i - μ) * (g i - μ) = ∑ i, g i * g i - 2 * μ * ∑ i, g i + 50000 * (μ * μ) := by
  have h : ∀ i, (g i - μ) * (g i - μ) = g i * g i - 2 * μ * g i + μ * μ := fun i => by ring
  simp only [h, Finset.sum_add_distrib, Finset.sum_sub_distrib, ← Finset.mul_sum, Finset.sum_const, Finset.card_univ,
    Fintype.card_fin, nsmul_eq_mul]
  norm_num
  ring

/-- For real data the mean of squared deviations from the mean is the mean of squares minus the squared mean, with the
    quotients as the programs take them (`Ideal.div` by the word for 50000). -/
theorem var_identity (f : Fin 50000 → EReal) (hf : ∀ i, IsReal (f i)) :
    Ideal.div (∑ i, (f i - Ideal.div (∑ i, f i) c50000) * (f i - Ideal.div (∑ i, f i) c50000)) c50000
      = Ideal.div (∑ i, f i * f i) c50000 - Ideal.div (∑ i, f i) c50000 * Ideal.div (∑ i, f i) c50000 := by
  choose g hg using hf
  have hN : (50000 : ℝ) ≠ 0 := by norm_num
  simp only [c50000_eq, Ideal.div_coe hN, hg, ← coe_sum_real, ← EReal.coe_mul, ← EReal.coe_sub]
  rw [EReal.coe_eq_coe_iff, sum_sq_dev]
  ring

end Cert.Spec

end
-- ==== Proof.PreFinite.lean ====
/-
  What the precondition gives: the predicate "every float input is finite" is a conjunction of seven tests, each an
  all-reduce of `|x| < +∞` over one input; where it holds, every element of the features, the weights, the bias and
  the first slope is a real number.
-/
import proofs.«154972_j25031069401690_1_alg».proof.Pre_finite_inputs
import proofs.«154972_j25031069401690_1_alg».proof.Proof.Gen.Pre_finite_inputs
import proofs.«154972_j25031069401690_1_alg».proof.Proof.Algebra
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Spec Idealize.ShloMosaic Idealize.ShloMosaic.ValueIdx

/-- The scalar shape has one index. -/
instance subsingleton_scalar_idx : Subsingleton S_.Idx := ⟨fun a b => funext fun d => d.elim0⟩

/-- A one-bit word made from a decided proposition is 1 only where the proposition holds. -/
theorem of_ofBool_decide {p : Prop} [Decidable p] (h : BitVec.ofBool (decide p) = 1#1) : p := by
  by_contra hn
  rw [decide_eq_false hn] at h
  exact absurd h (by decide)

/-- One test at one element: where `|x| < +∞` reads 1, the element is a real number. The absolute value is the larger
    of `x` and `-x`, the comparison is the order's, and the broadcast scalar reads as the +∞ word everywhere. -/
theorem real_of_test {s : Shape} (dims : Fin S_.rank → Fin s.rank) (hb : S_.BroadcastsInDim s dims) (x : FVec Ideal s .f32)
    (i : s.Idx)
    (h : cmpf .olt (Host.absf x) (broadcastInDim s dims hb (constant (F := Ideal) S_ .f32 0x7F800000#32)) i = 1#1) :
    IsReal (x i) := by
  have h' : BitVec.ofBool (decide (max (x i) (-(x i)) < Ideal.ofBits .f32 0x7F800000#32)) = 1#1 := h
  exact isReal_of_abs_lt (x i) (of_ofBool_decide h')

/-- Where the predicate is all ones, the features, the weights, the bias and the first slope are real everywhere. -/
theorem real_of_pre [Facts] (x0 : FVec Ideal S50000x128 .f32) (x1 x2 : IVec S800000 32) (x3 : FVec Ideal S128x128 .f32)
    (x4 : FVec Ideal S128 .f32) (x5 : FVec Ideal S1 .f32) (x6 x7 : FVec Ideal S128 .f32) (x8 : FVec Ideal S1 .f32)
    (h : fn (F := Ideal) x0 x1 x2 x3 x4 x5 x6 x7 x8 = fun _ => 1#1) :
    (∀ i, IsReal (x0 i)) ∧ (∀ i, IsReal (x3 i)) ∧ (∀ i, IsReal (x4 i)) ∧ (∀ i, IsReal (x5 i)) := by
  have h0 := congrFun h ix0
  dsimp only [fn, fn_part1] at h0
  -- the conjunction of the seven tests, opened from the outside: the last three (the normalisation's scale and shift,
  -- the second slope) are not needed
  obtain ⟨h0, -⟩ := IntOp.andi_eq_one.1 h0
  obtain ⟨h0, -⟩ := IntOp.andi_eq_one.1 h0
  obtain ⟨h0, -⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  -- each all-reduce that is 1 had a 1 at every element
  exact ⟨fun i => real_of_test _ _ x0 i (Host.reduce_andi_all _ _ _ _ ix0 e0 i),
    fun i => real_of_test _ _ x3 i (Host.reduce_andi_all _ _ _ _ ix0 e3 i),
    fun i => real_of_test _ _ x4 i (Host.reduce_andi_all _ _ _ _ ix0 e4 i),
    fun i => real_of_test _ _ x5 i (Host.reduce_andi_all _ _ _ _ ix0 e5 i)⟩

end Cert.Pre_finite_inputs.Finite

end
-- ==== Proof.RefSpec.lean ====
/-
  The reference's stages read at an index, in the shapes the bridge uses: the projection as a sum over `k`, the
  activation, the column sum and mean, the mean of squared deviations, and the normalised result, each as the shared
  pointwise function of the stage(s) before it.
-/
import proofs.«154972_j25031069401690_1_alg».proof.Proof.RefRead
import proofs.«154972_j25031069401690_1_alg».proof.Proof.Spec
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefSpec

open Cert.ReferenceIdeal Cert.ReferenceIdeal.Read Idealize.ShloMosaic Idealize.ShloMosaic.ValueIdx

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S1, .f32⟩ : BufTy).Contents (Elt Ideal)) (x6 x7 : (⟨S128, .f32⟩ : BufTy).Contents (Elt Ideal))
  (x8 : (⟨S1, .f32⟩ : BufTy).Contents (Elt Ideal))

/-- One term of the projection: a feature scaled by its row's norm, times a weight. -/
def term (x n w : EReal) : EReal := (x * n) * w

/-! ## Index equations

The reference's layout operations read their operand at a composed index; at an index given by its coordinates each
composition is again an index given by coordinates. -/

/-- The left operand of the contraction is read at row `i`, column `k`. -/
theorem lidx15_ix (i : Fin 50000) (j k : Fin 128) : lidx_main_v15 (ix2 i j) k = ix2 i k :=
  funext fun a => Fin.ext (by match a with | ⟨0, _⟩ => rfl | ⟨1, _⟩ => rfl)

/-- The right operand of the contraction is read at row `k`, column `j`. -/
theorem ridx15_ix (i : Fin 50000) (j k : Fin 128) : ridx_main_v15 (ix2 i j) k = ix2 k j :=
  funext fun a => Fin.ext (by match a with | ⟨0, _⟩ => rfl | ⟨1, _⟩ => rfl)

/-- A column `[50000, 1]` broadcast along the lanes is read at its row. -/
theorem idx13_ix (i : Fin 50000) (k : Fin 128) : idx_main_v13 (ix2 i k) = ix2 i (0 : Fin 1) :=
  funext fun a => Fin.ext (by match a with | ⟨0, _⟩ => rfl | ⟨1, _⟩ => rfl)

theorem idx26_ix (i : Fin 50000) (j : Fin 128) : idx_main_v26 (ix2 i j) = ix2 i (0 : Fin 1) :=
  funext fun a => Fin.ext (by match a with | ⟨0, _⟩ => rfl | ⟨1, _⟩ => rfl)

/-- A vector `[128]` broadcast down the rows is read at its lane. -/
theorem idx28_29_ix (i : Fin 50000) (j : Fin 128) : idx_main_v28 (idx_main_v29 (ix2 i j)) = ix1 j :=
  funext fun a => Fin.ext (by match a with | ⟨0, _⟩ => rfl)

/-- A one-element vector broadcast to the whole array is read at its only index. -/
theorem idx33_34_ix (i : Fin 50000) (j : Fin 128) : idx_main_v33 (idx_main_v34 (ix2 i j)) = ix1 (0 : Fin 1) :=
  funext fun a => Fin.ext (by match a with | ⟨0, _⟩ => rfl)

/-- The column sum over the rows reads row `k` of column `j`. -/
theorem idx37_ix (j : Fin 128) (k : Fin 50000) : idx_main_v37 (ix1 j) k = ix2 k j :=
  funext fun a => Fin.ext (by match a with | ⟨0, _⟩ => rfl | ⟨1, _⟩ => rfl)

theorem idx44_ix (j : Fin 128) (k : Fin 50000) : idx_main_v44 (ix1 j) k = ix2 k j :=
  funext fun a => Fin.ext (by match a with | ⟨0, _⟩ => rfl | ⟨1, _⟩ => rfl)

theorem idx40_41_ix (i : Fin 50000) (j : Fin 128) : idx_main_v40 (idx_main_v41 (ix2 i j)) = ix1 j :=
  funext fun a => Fin.ext (by match a with | ⟨0, _⟩ => rfl)

theorem idx47_48_ix (i : Fin 50000) (j : Fin 128) : idx_main_v47 (idx_main_v48 (ix2 i j)) = ix1 j :=
  funext fun a => Fin.ext (by match a with | ⟨0, _⟩ => rfl)

theorem idx53_54_ix (i : Fin 50000) (j : Fin 128) : idx_main_v53 (idx_main_v54 (ix2 i j)) = ix1 j :=
  funext fun a => Fin.ext (by match a with | ⟨0, _⟩ => rfl)

theorem idx56_57_ix (i : Fin 50000) (j : Fin 128) : idx_main_v56 (idx_main_v57 (ix2 i j)) = ix1 j :=
  funext fun a => Fin.ext (by match a with | ⟨0, _⟩ => rfl)

theorem idx59_60_ix (i : Fin 50000) (j : Fin 128) : idx_main_v59 (idx_main_v60 (ix2 i j)) = ix1 j :=
  funext fun a => Fin.ext (by match a with | ⟨0, _⟩ => rfl)

theorem idx64_65_ix (i : Fin 50000) (j : Fin 128) : idx_main_v64 (idx_main_v65 (ix2 i j)) = ix1 (0 : Fin 1) :=
  funext fun a => Fin.ext (by match a with | ⟨0, _⟩ => rfl)

/-- The projection `(feat · norm_src) @ W` at `[i, j]`. -/
theorem ref_h (i : Fin 50000) (j : Fin 128) :
    val_main_v15 (F := Ideal) x0 x1 x3 (ix2 i j)
      = ∑ k : Fin 128, term (x0 (ix2 i k)) (val_main_v10 (F := Ideal) x1 (ix2 i 0)) (x3 (ix2 k j)) := by
  -- the contraction is the sum over `k` of the scaled feature at `[i, k]` times the weight at `[k, j]`
  rw [val_main_v15_apply]
  refine Finset.sum_congr rfl fun k _ => ?_
  rw [lidx15_ix, ridx15_ix, val_main_v14_apply, val_main_v13_apply, idx13_ix, Ideal.mulf_def]
  rfl

/-- The activation at `[i, j]`: the aggregate scaled by the destination norm, plus the bias, rectified. -/
theorem ref_h1 (i : Fin 50000) (j : Fin 128) :
    val_main_v36 (F := Ideal) x0 x1 x2 x3 x4 x5 (ix2 i j)
      = Cert.Spec.act (val_main_v25 (F := Ideal) x0 x1 x2 x3 (ix2 i j)) (val_main_v12 (F := Ideal) x2 (ix2 i 0)) (x4 (ix1 j)) (x5 (ix1 0)) := by
  -- select (x ≥ 0) x (slope · x) with x = aggregate · norm + bias, every broadcast read at its source index
  rw [val_main_v36_apply, val_main_v32_apply, val_main_v35_apply, val_main_v34_apply, val_main_v33_apply,
    val_main_v31_apply, val_main_cst_6_apply, val_main_v30_apply, val_main_v29_apply, val_main_v28_apply,
    val_main_v27_apply, val_main_v26_apply]
  simp only [idx26_ix, idx28_29_ix, idx33_34_ix, Ideal.mulf_def, Ideal.addf_def, Ideal.ofBits_def, Ideal.cmpf_def,
    Cert.Spec.act, Cert.Spec.prelu]

/-- The column sum of the activations. -/
theorem ref_sum (j : Fin 128) :
    val_main_v37 (F := Ideal) x0 x1 x2 x3 x4 x5 (ix1 j) = ∑ i : Fin 50000, val_main_v36 (F := Ideal) x0 x1 x2 x3 x4 x5 (ix2 i j) := by
  -- the initial value of the sum is the zero word
  rw [val_main_v37_apply, val_main_cst_7_apply, Ideal.ofBits_def, Ideal.ofBits_zero_f32, zero_add]
  exact Finset.sum_congr rfl fun k _ => by rw [idx37_ix]

/-- The column mean: the sum over 50000. -/
theorem ref_mean (j : Fin 128) :
    val_main_v39 (F := Ideal) x0 x1 x2 x3 x4 x5 (ix1 j) = Ideal.div (val_main_v37 (F := Ideal) x0 x1 x2 x3 x4 x5 (ix1 j)) Cert.Spec.c50000 := by
  rw [val_main_v39_apply, val_main_v38_apply, val_main_cst_8_apply, Ideal.hostDivf_def, Ideal.ofBits_def]

/-- The column variance: the mean of the squared deviations from the column mean. -/
theorem ref_var (j : Fin 128) :
    val_main_v46 (F := Ideal) x0 x1 x2 x3 x4 x5 (ix1 j)
      = Ideal.div (∑ i : Fin 50000,
          (val_main_v36 (F := Ideal) x0 x1 x2 x3 x4 x5 (ix2 i j) - val_main_v39 (F := Ideal) x0 x1 x2 x3 x4 x5 (ix1 j))
            * (val_main_v36 (F := Ideal) x0 x1 x2 x3 x4 x5 (ix2 i j) - val_main_v39 (F := Ideal) x0 x1 x2 x3 x4 x5 (ix1 j))) Cert.Spec.c50000 := by
  -- the quotient of a column sum whose initial value is the zero word; each summand is a squared deviation
  have h44 : val_main_v44 (F := Ideal) x0 x1 x2 x3 x4 x5 (ix1 j)
      = ∑ i : Fin 50000,
          (val_main_v36 (F := Ideal) x0 x1 x2 x3 x4 x5 (ix2 i j) - val_main_v39 (F := Ideal) x0 x1 x2 x3 x4 x5 (ix1 j))
            * (val_main_v36 (F := Ideal) x0 x1 x2 x3 x4 x5 (ix2 i j) - val_main_v39 (F := Ideal) x0 x1 x2 x3 x4 x5 (ix1 j)) := by
    rw [val_main_v44_apply, val_main_cst_9_apply, Ideal.ofBits_def, Ideal.ofBits_zero_f32, zero_add]
    exact Finset.sum_congr rfl fun k _ => by
      rw [idx44_ix, val_main_v43_apply, val_main_v42_apply, val_main_v41_apply, val_main_v40_apply, idx40_41_ix,
        Ideal.mulf_def, Ideal.subf_def]
  rw [val_main_v46_apply, val_main_v45_apply, val_main_cst_10_apply, Ideal.hostDivf_def, Ideal.ofBits_def, h44]

/-- The result at `[i, j]`: normalisation and the second rectifier. -/
theorem ref_out (i : Fin 50000) (j : Fin 128) :
    val_main_v67 (F := Ideal) x0 x1 x2 x3 x4 x5 x6 x7 x8 (ix2 i j)
      = Cert.Spec.bn (val_main_v36 (F := Ideal) x0 x1 x2 x3 x4 x5 (ix2 i j)) (val_main_v39 (F := Ideal) x0 x1 x2 x3 x4 x5 (ix1 j))
          (val_main_v46 (F := Ideal) x0 x1 x2 x3 x4 x5 (ix1 j)) (x6 (ix1 j)) (x7 (ix1 j)) (x8 (ix1 0)) := by
  -- select (y ≥ 0) y (slope · y) with y = (x − mean) · rsqrt (var + ε) · γ + β, every broadcast read at its source index
  rw [val_main_v67_apply, val_main_v63_apply, val_main_v66_apply, val_main_v65_apply, val_main_v64_apply,
    val_main_v62_apply, val_main_cst_12_apply, val_main_v61_apply, val_main_v60_apply, val_main_v59_apply,
    val_main_v58_apply, val_main_v57_apply, val_main_v56_apply, val_main_v55_apply, val_main_v54_apply,
    val_main_v53_apply, val_main_v52_apply, val_main_v51_apply, val_main_v50_apply, val_main_cst_11_apply,
    val_main_v49_apply, val_main_v48_apply, val_main_v47_apply]
  simp only [idx47_48_ix, idx53_54_ix, idx56_57_ix, idx59_60_ix, idx64_65_ix, Ideal.mulf_def, Ideal.addf_def,
    Ideal.subf_def, Ideal.hostUnary_rsqrt_def, Ideal.ofBits_def, Ideal.cmpf_def, Cert.Spec.bn, Cert.Spec.prelu]

end Cert.ReferenceIdeal.RefSpec

end
-- ==== Proof.LibScatterGather.lean ====
/-
  Scatter-add and gather along the leading axis, read at an index.

  A scatter-add whose scatter indices are an [n × 1] column of node numbers adds update `e` (a scalar, or row `e`
  of an [n × C] array) into operand position (row) `idx[e, 0]`, read signed; an update whose number is outside
  `[0, N)` is dropped. So the result at `i` is the operand at `i` plus the sum of the updates `e` with
  `idx[e, 0] = i`. A gather with the same column of start indices reads row `idx[e, 0]` of the operand, the number
  read signed and clamped into `[0, N − 1]`. The lemmas hold for any dimension-number record with the stated
  field values, over any sizes.
-/
import Mathlib.Algebra.BigOperators.Group.Finset.Basic
import Mathlib.Data.EReal.Basic
import Idealize.ShloMosaic.PureOps.Dims
import Idealize.ShloMosaic.PureOps.ShapeOps
import Idealize.ShloMosaic.PureOps.Contract
import Idealize.ShloMosaic.PureOps.Ideal
import Idealize.ShloMosaic.Lib.ValueIdx
import Idealize.ShloMosaic.Lib.StableHlo.Predicate

noncomputable section

open scoped BigOperators

namespace Cert.LibScatterGather

open Idealize.ShloMosaic Idealize.ShloMosaic.ValueIdx

/-! ## Coordinates of `ix1` and `ix2` at an axis known only by a property -/

/-- A rank-1 index from `a` has the coordinate `a` on its one axis, however that axis is named. -/
theorem ix1_val {n : Nat} (a : Fin n) (X : Fin 1) : (ix1 a X).val = a.val := by
  obtain rfl : X = 0 := Subsingleton.elim _ _
  rfl

/-- A rank-2 index from `a` and `b` has the coordinate `a` on an axis that is not axis 1. -/
theorem ix2_val_of_ne_one {n0 n1 : Nat} (a : Fin n0) (b : Fin n1) (X : Fin 2) (hX : X ≠ 1) : (ix2 a b X).val = a.val := by
  match X, hX with
  | ⟨0, _⟩, _ => rfl
  | ⟨1, _⟩, hX => exact absurd rfl hX

/-- A rank-2 index from `a` and `b` has the coordinate `b` on an axis that is not axis 0. -/
theorem ix2_val_of_ne_zero {n0 n1 : Nat} (a : Fin n0) (b : Fin n1) (X : Fin 2) (hX : X ≠ 0) : (ix2 a b X).val = b.val := by
  match X, hX with
  | ⟨0, _⟩, hX => exact absurd rfl hX
  | ⟨1, _⟩, _ => rfl

/-! ## Scalar scatter-add: operand [N], scatter indices [n × 1], updates [n] -/

section Scalar
variable {N n w : Nat} (d : ScatterDims ⟨1, ![N]⟩ ⟨2, ![n, 1]⟩ ⟨1, ![n]⟩)

/-- Update `e` reads its scatter index at `[e, 0]`: the update's one axis is its scatter axis, and the index vector
(axis 1) has the one component. -/
theorem siIdx_scalar (hsd : d.scatterDimsToOperandDims = [0]) (hiv : d.indexVectorDim = 1)
    (e : Fin n) (c : Fin d.scatterDimsToOperandDims.length) : d.siIdx (ix1 e) c = ix2 e 0 := by
  funext b
  match b with
  | ⟨0, hb⟩ =>
    unfold ScatterDims.siIdx
    rw [dif_neg (by rw [hiv]; exact (by decide : ¬ (0 : ℕ) = 1))]
    unfold ScatterDims.siCoord
    apply Fin.ext
    simp only [Fin.val_cast]
    exact ix1_val e _
  | ⟨1, hb⟩ =>
    unfold ScatterDims.siIdx
    rw [dif_pos (by rw [hiv])]
    apply Fin.ext
    have hl : d.scatterDimsToOperandDims.length = 1 := by rw [hsd]; rfl
    have hc := c.isLt
    show c.val = 0
    omega

/-- The start of update `e`'s window on the operand's axis: its scatter index read signed. -/
theorem start_scalar (hsd : d.scatterDimsToOperandDims = [0]) (hiv : d.indexVectorDim = 1)
    (idx : IVec ⟨2, ![n, 1]⟩ w) (e : Fin n) (a : Fin 1) : d.start (ix1 e) idx a = (idx (ix2 e 0)).toInt := by
  obtain rfl : a = 0 := Subsingleton.elim _ _
  unfold ScatterDims.start
  rw [dif_pos (by rw [hsd]; exact List.mem_singleton.mpr rfl), siIdx_scalar d hsd hiv]

/-- The operand's one axis is inserted: no window coordinate on it. -/
theorem window_scalar (hiw : d.insertedWindowDims = [0]) (j : (⟨1, ![n]⟩ : Shape).Idx) (a : Fin 1) : d.window j a = 0 := by
  obtain rfl : a = 0 := Subsingleton.elim _ _
  unfold ScatterDims.window
  rw [dif_neg]
  intro h
  have : (0 : Fin 1) ∉ d.insertedWindowDims := by
    simpa [ScatterDims.sKept, Shape.kept, List.mem_filter] using h
  exact this (by rw [hiw]; exact List.mem_singleton.mpr rfl)

/-- Update `e` lands at operand position `i` exactly when its scatter index, read signed, is `i`. -/
theorem resultIdx?_scalar (hiw : d.insertedWindowDims = [0]) (hsd : d.scatterDimsToOperandDims = [0])
    (hiv : d.indexVectorDim = 1) (idx : IVec ⟨2, ![n, 1]⟩ w) (e : Fin n) (i : Fin N) :
    d.resultIdx? (ix1 e) idx = some (ix1 i) ↔ (idx (ix2 e 0)).toInt = (i.val : ℤ) := by
  have hsw : ∀ a : Fin 1, d.start (ix1 e) idx a + ((d.window (ix1 e) a : ℕ) : ℤ) = (idx (ix2 e 0)).toInt := by
    intro a
    rw [start_scalar d hsd hiv, window_scalar d hiw]
    simp
  have hsz : ∀ a : Fin 1, (⟨1, ![N]⟩ : Shape).size a = N := by
    intro a
    obtain rfl : a = 0 := Subsingleton.elim _ _
    rfl
  unfold ScatterDims.resultIdx?
  by_cases h : ∀ a, 0 ≤ d.start (ix1 e) idx a + ((d.window (ix1 e) a : ℕ) : ℤ)
      ∧ d.start (ix1 e) idx a + ((d.window (ix1 e) a : ℕ) : ℤ) < (((⟨1, ![N]⟩ : Shape).size a : ℕ) : ℤ)
  · rw [dif_pos h]
    constructor
    · intro heq
      have h0 := congrArg Fin.val (congrFun (Option.some.inj heq) 0)
      change (d.start (ix1 e) idx 0 + ((d.window (ix1 e) 0 : ℕ) : ℤ)).toNat = i.val at h0
      have hh := (h 0).1
      rw [hsw 0] at h0 hh
      omega
    · intro hv
      refine congrArg some (funext fun a => Fin.ext ?_)
      obtain rfl : a = 0 := Subsingleton.elim _ _
      show (d.start (ix1 e) idx 0 + ((d.window (ix1 e) 0 : ℕ) : ℤ)).toNat = i.val
      rw [hsw 0, hv]
      simp
  · rw [dif_neg h]
    constructor
    · intro heq
      exact absurd heq (by simp)
    · intro hv
      refine absurd (fun a => ?_) h
      rw [hsw a, hv, hsz a]
      exact ⟨Int.natCast_nonneg _, by exact_mod_cast i.isLt⟩

/-- THE SCALAR SCATTER-ADD READ AT `i`: the operand there plus the sum of the updates whose scatter index, read
signed, is `i`. The updates' index type is re-indexed by its one coordinate. -/
theorem scatterAdd_scalar_apply {φ : FTy} (hiw : d.insertedWindowDims = [0]) (hsd : d.scatterDimsToOperandDims = [0])
    (hiv : d.indexVectorDim = 1) (x : FVec Ideal ⟨1, ![N]⟩ φ) (idx : IVec ⟨2, ![n, 1]⟩ w)
    (upd : FVec Ideal ⟨1, ![n]⟩ φ) (i : Fin N) :
    Host.scatterAdd (F := Ideal) d x idx upd (ix1 i)
      = x (ix1 i) + ∑ e ∈ Finset.univ.filter (fun e : Fin n => (idx (ix2 e 0)).toInt = (i.val : ℤ)), upd (ix1 e) := by
  have h1 : Host.scatterAdd (F := Ideal) d x idx upd (ix1 i) = Ideal.hostScatterAdd d x idx upd (ix1 i) := rfl
  rw [h1]
  unfold Ideal.hostScatterAdd
  refine congrArg (fun t : EReal => x (ix1 i) + t) ?_
  refine Finset.sum_bij' (fun j _ => (j 0 : Fin n)) (fun e _ => ix1 e) ?_ ?_ ?_ ?_ ?_
  · intro j hj
    have hm := (Finset.mem_filter.1 hj).2
    rw [eq_ix1 j] at hm
    exact Finset.mem_filter.2 ⟨Finset.mem_univ _, (resultIdx?_scalar d hiw hsd hiv idx (j 0) i).1 hm⟩
  · intro e he
    exact Finset.mem_filter.2 ⟨Finset.mem_univ _,
      (resultIdx?_scalar d hiw hsd hiv idx e i).2 (Finset.mem_filter.1 he).2⟩
  · intro j _
    exact (eq_ix1 j).symm
  · intro e _
    rfl
  · intro j _
    exact congrArg upd (eq_ix1 j)

end Scalar

/-! ## Row scatter-add: operand [N × C], scatter indices [n × 1], updates [n × C] -/

section Rows
variable {N C n w : Nat} (d : ScatterDims ⟨2, ![N, C]⟩ ⟨2, ![n, 1]⟩ ⟨2, ![n, C]⟩)

/-- The updates' scatter axes are the ones that are not the window axis 1. -/
theorem uScatter_ne_one (huw : d.updateWindowDims = [1]) (k : ℕ) (hk : k < d.uScatter.length) :
    d.uScatter[k] ≠ 1 := by
  have hmem : d.uScatter[k] ∈ d.uScatter := List.getElem_mem hk
  intro h1
  rw [h1] at hmem
  simp [ScatterDims.uScatter, Shape.kept, huw] at hmem

/-- The updates' one window axis is axis 1. -/
theorem updateWindowDims_eq_one (huw : d.updateWindowDims = [1]) (k : ℕ) (hk : k < d.updateWindowDims.length) :
    d.updateWindowDims[k] = 1 := by
  have hall : ∀ X ∈ d.updateWindowDims, X = 1 := by
    rw [huw]
    intro X hX
    exact List.mem_singleton.mp hX
  exact hall _ (List.getElem_mem hk)

/-- Element `[e, h]` of the updates reads its scatter index at `[e, 0]`. -/
theorem siIdx_rows (huw : d.updateWindowDims = [1]) (hsd : d.scatterDimsToOperandDims = [0]) (hiv : d.indexVectorDim = 1)
    (e : Fin n) (h : Fin C) (c : Fin d.scatterDimsToOperandDims.length) : d.siIdx (ix2 e h) c = ix2 e 0 := by
  funext b
  match b with
  | ⟨0, hb⟩ =>
    unfold ScatterDims.siIdx
    rw [dif_neg (by rw [hiv]; exact (by decide : ¬ (0 : ℕ) = 1))]
    unfold ScatterDims.siCoord
    apply Fin.ext
    simp only [Fin.val_cast]
    exact ix2_val_of_ne_one e h _ (uScatter_ne_one d huw _ _)
  | ⟨1, hb⟩ =>
    unfold ScatterDims.siIdx
    rw [dif_pos (by rw [hiv])]
    apply Fin.ext
    have hl : d.scatterDimsToOperandDims.length = 1 := by rw [hsd]; rfl
    have hc := c.isLt
    show c.val = 0
    omega

/-- On the operand's row axis the window of update element `[e, h]` starts at its scatter index read signed … -/
theorem start_rows_zero (huw : d.updateWindowDims = [1]) (hsd : d.scatterDimsToOperandDims = [0]) (hiv : d.indexVectorDim = 1)
    (idx : IVec ⟨2, ![n, 1]⟩ w) (e : Fin n) (h : Fin C) : d.start (ix2 e h) idx 0 = (idx (ix2 e 0)).toInt := by
  unfold ScatterDims.start
  rw [dif_pos (by rw [hsd]; exact List.mem_singleton.mpr rfl), siIdx_rows d huw hsd hiv]

/-- … and on the column axis, which the scatter indices do not name, at 0. -/
theorem start_rows_one (hsd : d.scatterDimsToOperandDims = [0]) (idx : IVec ⟨2, ![n, 1]⟩ w)
    (j : (⟨2, ![n, C]⟩ : Shape).Idx) : d.start j idx 1 = 0 := by
  unfold ScatterDims.start
  rw [dif_neg (by rw [hsd]; exact (by decide : (1 : Fin 2) ∉ [(0 : Fin 2)]))]

/-- The row axis is inserted: no window coordinate on it … -/
theorem window_rows_zero (hiw : d.insertedWindowDims = [0]) (j : (⟨2, ![n, C]⟩ : Shape).Idx) : d.window j 0 = 0 := by
  unfold ScatterDims.window
  rw [dif_neg]
  intro h
  have : (0 : Fin 2) ∉ d.insertedWindowDims := by
    simpa [ScatterDims.sKept, Shape.kept, List.mem_filter] using h
  exact this (by rw [hiw]; exact List.mem_singleton.mpr rfl)

/-- … and on the column axis the window coordinate is the update's column. -/
theorem window_rows_one (huw : d.updateWindowDims = [1]) (hiw : d.insertedWindowDims = [0]) (e : Fin n) (h : Fin C) :
    d.window (ix2 e h) 1 = h.val := by
  unfold ScatterDims.window
  have hk : (1 : Fin 2) ∈ d.sKept := by
    simp [ScatterDims.sKept, Shape.kept, List.mem_filter, hiw]
  rw [dif_pos hk]
  refine ix2_val_of_ne_zero e h _ ?_
  rw [updateWindowDims_eq_one d huw]
  exact (by decide : (1 : Fin 2) ≠ 0)

/-- Update element `[e, h]` lands at operand element `[i, h']` exactly when its scatter index, read signed, is `i` and
the columns agree. -/
theorem resultIdx?_rows (huw : d.updateWindowDims = [1]) (hiw : d.insertedWindowDims = [0])
    (hsd : d.scatterDimsToOperandDims = [0]) (hiv : d.indexVectorDim = 1) (idx : IVec ⟨2, ![n, 1]⟩ w)
    (e : Fin n) (h : Fin C) (i : Fin N) (h' : Fin C) :
    d.resultIdx? (ix2 e h) idx = some (ix2 i h') ↔ ((idx (ix2 e 0)).toInt = (i.val : ℤ) ∧ h = h') := by
  have hsw0 : d.start (ix2 e h) idx 0 + ((d.window (ix2 e h) 0 : ℕ) : ℤ) = (idx (ix2 e 0)).toInt := by
    rw [start_rows_zero d huw hsd hiv, window_rows_zero d hiw]
    simp
  have hsw1 : d.start (ix2 e h) idx 1 + ((d.window (ix2 e h) 1 : ℕ) : ℤ) = (h.val : ℤ) := by
    rw [start_rows_one d hsd, window_rows_one d huw hiw]
    simp
  unfold ScatterDims.resultIdx?
  by_cases hc : ∀ a, 0 ≤ d.start (ix2 e h) idx a + ((d.window (ix2 e h) a : ℕ) : ℤ)
      ∧ d.start (ix2 e h) idx a + ((d.window (ix2 e h) a : ℕ) : ℤ) < (((⟨2, ![N, C]⟩ : Shape).size a : ℕ) : ℤ)
  · rw [dif_pos hc]
    constructor
    · intro heq
      have hf := Option.some.inj heq
      have h0 := congrArg Fin.val (congrFun hf 0)
      have h1 := congrArg Fin.val (congrFun hf 1)
      change (d.start (ix2 e h) idx 0 + ((d.window (ix2 e h) 0 : ℕ) : ℤ)).toNat = i.val at h0
      change (d.start (ix2 e h) idx 1 + ((d.window (ix2 e h) 1 : ℕ) : ℤ)).toNat = h'.val at h1
      have hh := (hc 0).1
      rw [hsw0] at h0 hh
      rw [hsw1] at h1
      exact ⟨by omega, Fin.ext (by omega)⟩
    · rintro ⟨hv, rfl⟩
      refine congrArg some (funext fun a => Fin.ext ?_)
      match a with
      | ⟨0, _⟩ =>
        show (d.start (ix2 e h) idx 0 + ((d.window (ix2 e h) 0 : ℕ) : ℤ)).toNat = i.val
        rw [hsw0, hv]
        simp
      | ⟨1, _⟩ =>
        show (d.start (ix2 e h) idx 1 + ((d.window (ix2 e h) 1 : ℕ) : ℤ)).toNat = h.val
        rw [hsw1]
        simp
  · rw [dif_neg hc]
    constructor
    · intro heq
      exact absurd heq (by simp)
    · rintro ⟨hv, _⟩
      refine absurd (fun a => ?_) hc
      match a with
      | ⟨0, _⟩ =>
        show 0 ≤ d.start (ix2 e h) idx 0 + ((d.window (ix2 e h) 0 : ℕ) : ℤ)
          ∧ d.start (ix2 e h) idx 0 + ((d.window (ix2 e h) 0 : ℕ) : ℤ) < ((N : ℕ) : ℤ)
        rw [hsw0, hv]
        exact ⟨Int.natCast_nonneg _, by exact_mod_cast i.isLt⟩
      | ⟨1, _⟩ =>
        show 0 ≤ d.start (ix2 e h) idx 1 + ((d.window (ix2 e h) 1 : ℕ) : ℤ)
          ∧ d.start (ix2 e h) idx 1 + ((d.window (ix2 e h) 1 : ℕ) : ℤ) < ((C : ℕ) : ℤ)
        rw [hsw1]
        exact ⟨Int.natCast_nonneg _, by exact_mod_cast h.isLt⟩

/-- THE ROW SCATTER-ADD READ AT `[i, h]`: the operand there plus the sum over the updates' rows whose scatter index,
read signed, is `i` of their element in column `h`. The updates' elements that land at `[i, h]` are re-indexed by their row. -/
theorem scatterAdd_rows_apply {φ : FTy} (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![n, 1]⟩ w) (upd : FVec Ideal ⟨2, ![n, C]⟩ φ) (i : Fin N) (h : Fin C) :
    Host.scatterAdd (F := Ideal) d x idx upd (ix2 i h)
      = x (ix2 i h) + ∑ e ∈ Finset.univ.filter (fun e : Fin n => (idx (ix2 e 0)).toInt = (i.val : ℤ)), upd (ix2 e h) := by
  have h1 : Host.scatterAdd (F := Ideal) d x idx upd (ix2 i h) = Ideal.hostScatterAdd d x idx upd (ix2 i h) := rfl
  rw [h1]
  unfold Ideal.hostScatterAdd
  refine congrArg (fun t : EReal => x (ix2 i h) + t) ?_
  have hland : ∀ j : (⟨2, ![n, C]⟩ : Shape).Idx, d.resultIdx? j idx = some (ix2 i h) →
      (idx (ix2 (j 0) 0)).toInt = (i.val : ℤ) ∧ (j 1 : Fin C) = h := by
    intro j hm
    rw [eq_ix2 j] at hm
    exact (resultIdx?_rows d huw hiw hsd hiv idx (j 0) (j 1) i h).1 hm
  refine Finset.sum_bij' (fun j _ => (j 0 : Fin n)) (fun e _ => ix2 e h) ?_ ?_ ?_ ?_ ?_
  · intro j hj
    exact Finset.mem_filter.2 ⟨Finset.mem_univ _, (hland j (Finset.mem_filter.1 hj).2).1⟩
  · intro e he
    exact Finset.mem_filter.2 ⟨Finset.mem_univ _,
      (resultIdx?_rows d huw hiw hsd hiv idx e h i h).2 ⟨(Finset.mem_filter.1 he).2, rfl⟩⟩
  · intro j hj
    have hj1 := (hland j (Finset.mem_filter.1 hj).2).2
    show ix2 (j 0) h = j
    rw [← hj1]
    exact (eq_ix2 j).symm
  · intro e _
    rfl
  · intro j hj
    have hj1 := (hland j (Finset.mem_filter.1 hj).2).2
    show upd j = upd (ix2 (j 0) h)
    rw [← hj1]
    exact congrArg upd (eq_ix2 j)

end Rows

/-! ## Row gather: operand [N × C], start indices [n × 1], result [n × C] -/

section GatherRows
variable {N C n w : Nat} (d : GatherDims ⟨2, ![N, C]⟩ ⟨2, ![n, 1]⟩ ⟨2, ![n, C]⟩)

/-- The result's batch axes are the ones that are not the offset axis 1. -/
theorem batchDims_ne_one (hod : d.offsetDims = [1]) (k : ℕ) (hk : k < d.batchDims.length) : d.batchDims[k] ≠ 1 := by
  have hall : ∀ X ∈ d.batchDims, X ≠ 1 := by
    intro X hX h1
    rw [h1] at hX
    simp [GatherDims.batchDims, Shape.kept, hod] at hX
  exact hall _ (List.getElem_mem hk)

/-- The result's one offset axis is axis 1. -/
theorem offsetDims_eq_one (hod : d.offsetDims = [1]) (k : ℕ) (hk : k < d.offsetDims.length) : d.offsetDims[k] = 1 := by
  have hall : ∀ X ∈ d.offsetDims, X = 1 := by
    rw [hod]
    intro X hX
    exact List.mem_singleton.mp hX
  exact hall _ (List.getElem_mem hk)

/-- Result element `[e, h]` reads its start index at `[e, 0]`. -/
theorem siIdx_gather_rows (hod : d.offsetDims = [1]) (hsim : d.startIndexMap = [0]) (hiv : d.indexVectorDim = 1)
    (e : Fin n) (h : Fin C) (c : Fin d.startIndexMap.length) : d.siIdx (ix2 e h) c = ix2 e 0 := by
  funext b
  match b with
  | ⟨0, hb⟩ =>
    unfold GatherDims.siIdx
    rw [dif_neg (by rw [hiv]; exact (by decide : ¬ (0 : ℕ) = 1))]
    unfold GatherDims.siCoord
    apply Fin.ext
    simp only [Fin.val_cast]
    exact ix2_val_of_ne_one e h _ (batchDims_ne_one d hod _ _)
  | ⟨1, hb⟩ =>
    unfold GatherDims.siIdx
    rw [dif_pos (by rw [hiv])]
    apply Fin.ext
    have hl : d.startIndexMap.length = 1 := by rw [hsim]; rfl
    have hc := c.isLt
    show c.val = 0
    omega

/-- THE ROW GATHER READ AT `[e, h]`: the operand's row at the start index `idx[e, 0]`, read signed and clamped into
`[0, N − 1]`, in column `h`. -/
theorem gather_rows_apply {α : Type} (hod : d.offsetDims = [1]) (hcoll : d.collapsedSliceDims = [0])
    (hob : d.operandBatchingDims = []) (hsim : d.startIndexMap = [0]) (hiv : d.indexVectorDim = 1)
    (x : (⟨2, ![N, C]⟩ : Shape).Idx → α) (idx : IVec ⟨2, ![n, 1]⟩ w) (hN : 0 < N) (e : Fin n) (h : Fin C) :
    Host.gather d x idx (ix2 e h) = x (ix2 ⟨min (idx (ix2 e 0)).toInt.toNat (N - 1), by omega⟩ h) := by
  have hb : ∀ a : Fin 2, a ∉ d.operandBatchingDims := by
    intro a
    rw [hob]
    exact List.not_mem_nil
  have hk0 : (0 : Fin 2) ∉ d.sKept := by
    rw [GatherDims.mem_sKept, hcoll]
    simp
  have hk1 : (1 : Fin 2) ∈ d.sKept := by
    rw [GatherDims.mem_sKept, hcoll, hob]
    simp
  have hm0 : (0 : Fin 2) ∈ d.startIndexMap := by
    rw [hsim]
    exact List.mem_singleton.mpr rfl
  have hm1 : (1 : Fin 2) ∉ d.startIndexMap := by
    rw [hsim]
    exact (by decide : (1 : Fin 2) ∉ [(0 : Fin 2)])
  have hsl : d.sliceSizes 0 = 1 := d.slice_collapsed 0 (by rw [hcoll]; exact List.mem_singleton.mpr rfl)
  unfold Host.gather
  refine congrArg x (funext fun a => Fin.ext ?_)
  match a with
  | ⟨0, _⟩ =>
    show d.start (ix2 e h) idx 0 + d.batchCoord (ix2 e h) 0 + d.offCoord (ix2 e h) 0
      = min (idx (ix2 e 0)).toInt.toNat (N - 1)
    rw [d.batchCoord_eq_zero _ _ (hb 0), d.offCoord_eq_zero _ _ hk0]
    simp only [Nat.add_zero]
    unfold GatherDims.start
    rw [dif_pos hm0, siIdx_gather_rows d hod hsim hiv, hsl]
    rfl
  | ⟨1, _⟩ =>
    show d.start (ix2 e h) idx 1 + d.batchCoord (ix2 e h) 1 + d.offCoord (ix2 e h) 1 = h.val
    have hs : d.start (ix2 e h) idx 1 = 0 := by
      unfold GatherDims.start
      rw [dif_neg hm1]
    rw [hs, d.batchCoord_eq_zero _ _ (hb 1)]
    simp only [Nat.zero_add, Nat.add_zero]
    unfold GatherDims.offCoord
    rw [dif_pos hk1]
    refine ix2_val_of_ne_zero e h _ ?_
    rw [offsetDims_eq_one d hod]
    exact (by decide : (1 : Fin 2) ≠ 0)

/-- A word whose signed reading is not negative has that reading as its unsigned one. -/
theorem toInt_toNat_of_nonneg {w : Nat} {b : BitVec w} (hlo : 0 ≤ b.toInt) : b.toInt.toNat = b.toNat := by
  have hc := BitVec.toInt_eq_toNat_cond b
  have hl : b.toNat < 2 ^ w := b.isLt
  generalize (2 : ℕ) ^ w = P at hc hl
  split_ifs at hc with h2 <;> omega

/-- A word whose signed reading lies in `[0, N)` has its unsigned reading below `N`. -/
theorem toNat_lt_of_toInt_lt {w N : Nat} {b : BitVec w} (hlo : 0 ≤ b.toInt) (hhi : b.toInt < (N : ℤ)) : b.toNat < N := by
  have := toInt_toNat_of_nonneg hlo
  omega

/-- The row gather at a start index that is a row number: no clamp, the row itself. -/
theorem gather_rows_apply_of_inRange {α : Type} (hod : d.offsetDims = [1]) (hcoll : d.collapsedSliceDims = [0])
    (hob : d.operandBatchingDims = []) (hsim : d.startIndexMap = [0]) (hiv : d.indexVectorDim = 1)
    (x : (⟨2, ![N, C]⟩ : Shape).Idx → α) (idx : IVec ⟨2, ![n, 1]⟩ w) (e : Fin n) (h : Fin C)
    (hlo : 0 ≤ (idx (ix2 e 0)).toInt) (hhi : (idx (ix2 e 0)).toInt < (N : ℤ)) :
    Host.gather d x idx (ix2 e h) = x (ix2 ⟨(idx (ix2 e 0)).toNat, toNat_lt_of_toInt_lt hlo hhi⟩ h) := by
  have hlt := toNat_lt_of_toInt_lt hlo hhi
  rw [gather_rows_apply d hod hcoll hob hsim hiv x idx (by omega) e h]
  refine congrArg x ?_
  refine congrArg (fun r : Fin N => ix2 r h) (Fin.ext ?_)
  show min (idx (ix2 e 0)).toInt.toNat (N - 1) = (idx (ix2 e 0)).toNat
  rw [toInt_toNat_of_nonneg hlo]
  omega

end GatherRows

end Cert.LibScatterGather

end
-- ==== Proof.RefFinite.lean ====
/-
  Under finite float inputs every activation of the reference is a real number. The degree counts are finite sums of
  ones, so the clamped degrees are reals at least 1 and their reciprocal square roots are reals; the projection is a
  finite sum of products of reals; a gathered row is a row of the projection (the start index clamped into range); the
  aggregate is a finite sum of gathered elements; and the activation is a rectified real.
-/
import proofs.«154972_j25031069401690_1_alg».proof.Proof.RefSpec
import proofs.«154972_j25031069401690_1_alg».proof.Proof.Algebra
import proofs.«154972_j25031069401690_1_alg».proof.Proof.LibScatterGather
import Idealize.ShloMosaic.Lib.ValueIdx
import Idealize.ShloMosaic.Lib.ValueLayout
import Idealize.ShloMosaic.PureOps.Ideal.Laws

noncomputable section

open scoped BigOperators

namespace Cert.ReferenceIdeal.RefFinite

open Cert.ReferenceIdeal Cert.ReferenceIdeal.Read Idealize.ShloMosaic Idealize.ShloMosaic.ValueIdx Cert.Spec

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S1, .f32⟩ : BufTy).Contents (Elt Ideal)) (x6 x7 : (⟨S128, .f32⟩ : BufTy).Contents (Elt Ideal))
  (x8 : (⟨S1, .f32⟩ : BufTy).Contents (Elt Ideal))

/-- The f32 word of zero denotes a real. -/
theorem zeroWord_real : IsReal (FloatOps.ofBits (F := Ideal) .f32 0x00000000#32) := by
  show IsReal (Ideal.ofBits .f32 0x00000000#32)
  rw [ofBits_zero]
  exact IsReal.zero

/-- The f32 word of one denotes a real. -/
theorem oneWord_real : IsReal (FloatOps.ofBits (F := Ideal) .f32 0x3F800000#32) := by
  show IsReal (Ideal.ofBits .f32 0x3F800000#32)
  rw [ofBits_one]
  exact IsReal.one

/-- The out-degree count at a node: zero plus a finite sum of ones. -/
theorem v3_real (i : Fin 50000) : IsReal (val_main_v3 (F := Ideal) x1 (ix1 i)) := by
  unfold val_main_v3
  rw [Cert.LibScatterGather.scatterAdd_scalar_apply scatter_S50000_S800000x1_S800000_n_0_0_1 rfl rfl rfl]
  refine IsReal.add ?_ (IsReal.sum _ _ fun e _ => ?_)
  · rw [val_main_v1_apply, val_main_cst_0_apply]
    exact zeroWord_real
  · rw [val_main_v0_apply, val_main_cst_apply]
    exact oneWord_real

/-- The in-degree count at a node: zero plus a finite sum of ones. -/
theorem v7_real (i : Fin 50000) : IsReal (val_main_v7 (F := Ideal) x2 (ix1 i)) := by
  unfold val_main_v7
  rw [Cert.LibScatterGather.scatterAdd_scalar_apply scatter_S50000_S800000x1_S800000_n_0_0_1 rfl rfl rfl]
  refine IsReal.add ?_ (IsReal.sum _ _ fun e _ => ?_)
  · rw [val_main_v5_apply, val_main_cst_2_apply]
    exact zeroWord_real
  · rw [val_main_v0_apply, val_main_cst_apply]
    exact oneWord_real

/-- The source norm of a node: the reciprocal square root of its out-degree clamped below by one. -/
theorem v10_real (i : Fin 50000) : IsReal (val_main_v10 (F := Ideal) x1 (ix2 i 0)) := by
  have hidx : idx_main_v10 (ix2 i (0 : Fin 1)) = ix1 i := by
    funext a
    match a with
    | ⟨0, _⟩ => rfl
  rw [val_main_v10_apply, hidx, val_main_v9_apply, val_main_v4_apply, val_main_call0_v1_apply,
    val_main_call0_v0_apply, val_main_cst_1_apply]
  rw [Ideal.hostUnary_rsqrt_def, Ideal.maximumf_def, Ideal.ofBits_def, ofBits_one]
  exact IsReal.rsqrt (IsReal.max IsReal.one (v3_real x1 i)) (one_le_max_one _)

/-- The destination norm of a node: the reciprocal square root of its in-degree clamped below by one. -/
theorem v12_real (i : Fin 50000) : IsReal (val_main_v12 (F := Ideal) x2 (ix2 i 0)) := by
  have hidx : idx_main_v12 (ix2 i (0 : Fin 1)) = ix1 i := by
    funext a
    match a with
    | ⟨0, _⟩ => rfl
  rw [val_main_v12_apply, hidx, val_main_v11_apply, val_main_v8_apply, val_main_call1_v1_apply,
    val_main_call1_v0_apply, val_main_cst_3_apply]
  rw [Ideal.hostUnary_rsqrt_def, Ideal.maximumf_def, Ideal.ofBits_def, ofBits_one]
  exact IsReal.rsqrt (IsReal.max IsReal.one (v7_real x2 i)) (one_le_max_one _)

/-- The projection at an element: a finite sum of products of three reals. -/
theorem v15_real (h0 : ∀ i, IsReal (x0 i)) (h3 : ∀ i, IsReal (x3 i)) (i : Fin 50000) (j : Fin 128) :
    IsReal (val_main_v15 (F := Ideal) x0 x1 x3 (ix2 i j)) := by
  rw [RefSpec.ref_h]
  refine IsReal.sum _ _ fun k _ => ?_
  unfold RefSpec.term
  exact ((h0 _).mul (v10_real x1 i)).mul (h3 _)

/-- A gathered element is an element of the projection, in the row the clamped start index names. -/
theorem v22_real (h0 : ∀ i, IsReal (x0 i)) (h3 : ∀ i, IsReal (x3 i)) (e : Fin 800000) (h : Fin 128) :
    IsReal (val_main_v22 (F := Ideal) x0 x1 x3 (ix2 e h)) := by
  unfold val_main_v22
  rw [Cert.LibScatterGather.gather_rows_apply gather_S50000x128_S800000x1_S800000x128_1_0_n_n_0_1_1128 rfl rfl rfl rfl rfl
    _ _ (by decide) e h]
  exact v15_real x0 x1 x3 h0 h3 _ h

/-- The aggregate at an element: zero plus a finite sum of gathered elements. -/
theorem v25_real (h0 : ∀ i, IsReal (x0 i)) (h3 : ∀ i, IsReal (x3 i)) (i : Fin 50000) (j : Fin 128) :
    IsReal (val_main_v25 (F := Ideal) x0 x1 x2 x3 (ix2 i j)) := by
  unfold val_main_v25
  rw [Cert.LibScatterGather.scatterAdd_rows_apply scatter_S50000x128_S800000x1_S800000x128_1_0_0_1 rfl rfl rfl rfl]
  refine IsReal.add ?_ (IsReal.sum _ _ fun e _ => v22_real x0 x1 x3 h0 h3 e j)
  rw [val_main_v23_apply, val_main_cst_5_apply]
  exact zeroWord_real

/-- Every activation is a real number when the features, the weights, the bias and the slope are. -/
theorem h1_real (h0 : ∀ i, IsReal (x0 i)) (h3 : ∀ i, IsReal (x3 i)) (h4 : ∀ i, IsReal (x4 i)) (h5 : ∀ i, IsReal (x5 i))
    (i : Fin 50000) (j : Fin 128) : IsReal (val_main_v36 (F := Ideal) x0 x1 x2 x3 x4 x5 (ix2 i j)) := by
  rw [RefSpec.ref_h1]
  exact IsReal.act (v25_real x0 x1 x2 x3 h0 h3 i j) (v12_real x2 i) (h4 _) (h5 _)

end Cert.ReferenceIdeal.RefFinite

end
-- ==== Proof.KHost.lean ====
/-
  The host stretches of the kernel's program, read back: what each region finds in the buffers it reads, as the host
  operations' terms of the launch contents and of the arrays the regions before it left.
-/
import proofs.«154972_j25031069401690_1_alg».proof.Proof.Gen.KernelIdeal.Frame
import Idealize.ShloMosaic.Lib.StableHlo.Run
import Idealize.ShloMosaic.Lib.Tactic

noncomputable section

set_option maxRecDepth 16384

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a host stretch writes keeps its contents across the stretch. -/
macro "unwritten" : tactic => `(tactic| (
  refine StableHlo.after_of_forall_not_mem _ _ (List.forall_iff_forall_mem.mp ?_)
  simp only [hostOps0, hostOps0_1, hostOps0_2, hostOps0_3, hostOps0_4, hostOps1, hostOps2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Buffers carried unchanged to a later boundary -/

/-- From region 0's entry back to the launch: a buffer none of the first five stretches writes. -/
theorem W5_of_launch (c : Dev nD) (b : Ref sig .tc)
    (h0 : W1 m ρ c (Proc.devRef .tc b) = W0 m ρ c (Proc.devRef .tc b))
    (h1 : W2 m ρ c (Proc.devRef .tc b) = W1 m ρ c (Proc.devRef .tc b))
    (h2 : W3 m ρ c (Proc.devRef .tc b) = W2 m ρ c (Proc.devRef .tc b))
    (h3 : W4 m ρ c (Proc.devRef .tc b) = W3 m ρ c (Proc.devRef .tc b))
    (h4 : W5 m ρ c (Proc.devRef .tc b) = W4 m ρ c (Proc.devRef .tc b)) :
    W5 m ρ c (Proc.devRef .tc b) = W0 m ρ c (Proc.devRef .tc b) :=
  h4.trans (h3.trans (h2.trans (h1.trans h0)))

theorem W5_arg0 (c : Dev nD) : W5 m ρ c (Proc.devRef .tc main_arg0) = m ((c : Thread nD τ).loc main_arg0) :=
  (W5_of_launch m ρ c main_arg0 (by unwritten) (by unwritten) (by unwritten) (by unwritten) (by unwritten)).trans rfl
theorem W5_arg1 (c : Dev nD) : W5 m ρ c (Proc.devRef .tc main_arg1) = m ((c : Thread nD τ).loc main_arg1) :=
  (W5_of_launch m ρ c main_arg1 (by unwritten) (by unwritten) (by unwritten) (by unwritten) (by unwritten)).trans rfl
theorem W5_arg2 (c : Dev nD) : W5 m ρ c (Proc.devRef .tc main_arg2) = m ((c : Thread nD τ).loc main_arg2) :=
  (W5_of_launch m ρ c main_arg2 (by unwritten) (by unwritten) (by unwritten) (by unwritten) (by unwritten)).trans rfl
theorem W5_arg3 (c : Dev nD) : W5 m ρ c (Proc.devRef .tc main_arg3) = m ((c : Thread nD τ).loc main_arg3) :=
  (W5_of_launch m ρ c main_arg3 (by unwritten) (by unwritten) (by unwritten) (by unwritten) (by unwritten)).trans rfl
theorem W5_arg4 (c : Dev nD) : W5 m ρ c (Proc.devRef .tc main_arg4) = m ((c : Thread nD τ).loc main_arg4) :=
  (W5_of_launch m ρ c main_arg4 (by unwritten) (by unwritten) (by unwritten) (by unwritten) (by unwritten)).trans rfl
theorem W5_arg5 (c : Dev nD) : W5 m ρ c (Proc.devRef .tc main_arg5) = m ((c : Thread nD τ).loc main_arg5) :=
  (W5_of_launch m ρ c main_arg5 (by unwritten) (by unwritten) (by unwritten) (by unwritten) (by unwritten)).trans rfl
theorem W5_arg6 (c : Dev nD) : W5 m ρ c (Proc.devRef .tc main_arg6) = m ((c : Thread nD τ).loc main_arg6) :=
  (W5_of_launch m ρ c main_arg6 (by unwritten) (by unwritten) (by unwritten) (by unwritten) (by unwritten)).trans rfl
theorem W5_arg7 (c : Dev nD) : W5 m ρ c (Proc.devRef .tc main_arg7) = m ((c : Thread nD τ).loc main_arg7) :=
  (W5_of_launch m ρ c main_arg7 (by unwritten) (by unwritten) (by unwritten) (by unwritten) (by unwritten)).trans rfl
theorem W5_arg8 (c : Dev nD) : W5 m ρ c (Proc.devRef .tc main_arg8) = m ((c : Thread nD τ).loc main_arg8) :=
  (W5_of_launch m ρ c main_arg8 (by unwritten) (by unwritten) (by unwritten) (by unwritten) (by unwritten)).trans rfl

/-- Region 0 writes only its result array, and the host stretch after it writes none of the arguments. -/
theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W8_arg6 (c : Dev nD) : W8 m ρ c (Proc.devRef .tc main_arg6) = m ((c : Thread nD τ).loc main_arg6) :=
  (W8_of_ne m ρ c main_arg6 (by decide)).trans
    ((show W7 m ρ c (Proc.devRef .tc main_arg6) = W6 m ρ c (Proc.devRef .tc main_arg6) by unwritten).trans (W6_arg6 m ρ c))
theorem W8_arg7 (c : Dev nD) : W8 m ρ c (Proc.devRef .tc main_arg7) = m ((c : Thread nD τ).loc main_arg7) :=
  (W8_of_ne m ρ c main_arg7 (by decide)).trans
    ((show W7 m ρ c (Proc.devRef .tc main_arg7) = W6 m ρ c (Proc.devRef .tc main_arg7) by unwritten).trans (W6_arg7 m ρ c))
theorem W8_arg8 (c : Dev nD) : W8 m ρ c (Proc.devRef .tc main_arg8) = m ((c : Thread nD τ).loc main_arg8) :=
  (W8_of_ne m ρ c main_arg8 (by decide)).trans
    ((show W7 m ρ c (Proc.devRef .tc main_arg8) = W6 m ρ c (Proc.devRef .tc main_arg8) by unwritten).trans (W6_arg8 m ρ c))

/-! ## Region 0's operands -/

/-- The degree normaliser of an index list: the count of each node among the indices (a scatter-add of ones into
    zeros), clamped below by 1, its reciprocal square root, as a [50000, 1] column. -/
def normCol (idx : IVec S800000 32) : FVec F S50000x1 .f32 :=
  broadcastInDim S50000x1 ![0] bcast_S50000_S50000x1_0
    (Host.rsqrt (maximumf (broadcastInDim S50000 ![] bcast_S_S50000 (id (constant S_ .f32 0x3F800000#32)))
      (Host.scatterAdd scatter_S50000_S800000x1_S800000_n_0_0_1 (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32)))))

theorem W5_v10 (c : Dev nD) : W5 m ρ c (Proc.devRef .tc main_v10) = normCol (F := F) (m ((c : Thread nD τ).loc main_arg1)) := by
  dsimp only [W5, W4, W3, W2, W1, W0, hostOps0, hostOps0_1, hostOps0_2, hostOps0_3, hostOps0_4]
  after_results
  rfl

theorem W5_v12 (c : Dev nD) : W5 m ρ c (Proc.devRef .tc main_v12) = normCol (F := F) (m ((c : Thread nD τ).loc main_arg2)) := by
  dsimp only [W5, W4, W3, W2, W1, W0, hostOps0, hostOps0_1, hostOps0_2, hostOps0_3, hostOps0_4]
  after_results
  rfl

/-! ## Region 1's operands -/

theorem W7_v12 (c : Dev nD) : W7 m ρ c (Proc.devRef .tc main_v12) = normCol (F := F) (m ((c : Thread nD τ).loc main_arg2)) :=
  (show W7 m ρ c (Proc.devRef .tc main_v12) = W6 m ρ c (Proc.devRef .tc main_v12) by unwritten).trans
    ((W6_of_ne m ρ c main_v12 (by decide)).trans (W5_v12 m ρ c))

/-- The neighbour aggregation of a projection `h`: the rows of `h` gathered at the source indices (a negative index
    wrapped by 50000), widened, and scatter-added into zeros at the destination indices. -/
def aggOf (h : FVec F S50000x128 .bf16) (src dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (extf .f32 (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))) bitsLt_bf16_f32)

theorem W7_v24 (c : Dev nD) : W7 m ρ c (Proc.devRef .tc main_v24)
    = aggOf (F := F) (W6 m ρ c (Proc.devRef .tc main_v13)) (m ((c : Thread nD τ).loc main_arg1)) (m ((c : Thread nD τ).loc main_arg2)) := by
  rw [← W6_arg1 m ρ c, ← W6_arg2 m ρ c]
  dsimp only [W7, hostOps1]
  after_results
  rfl

theorem W7_v25 (c : Dev nD) : W7 m ρ c (Proc.devRef .tc main_v25)
    = shapeCast S1x128 (m ((c : Thread nD τ).loc main_arg4)) shapeCasts_S128_S1x128 := by
  rw [← W6_arg4 m ρ c]
  dsimp only [W7, hostOps1]
  after_results
  rfl

theorem W7_v26 (c : Dev nD) : W7 m ρ c (Proc.devRef .tc main_v26)
    = shapeCast S1x1 (m ((c : Thread nD τ).loc main_arg5)) shapeCasts_S1_S1x1 := by
  rw [← W6_arg5 m ρ c]
  dsimp only [W7, hostOps1]
  after_results
  rfl

/-! ## Region 2's operands -/

theorem W9_v27_0 (c : Dev nD) : W9 m ρ c (Proc.devRef .tc main_v27_0) = W8 m ρ c (Proc.devRef .tc main_v27_0) := by
  unwritten

/-- The divisor 50000.0 broadcast over a [1, 128] row. -/
def divisor : FVec F S1x128 .f32 := broadcastInDim S1x128 ![] bcast_S_S1x128 (constant S_ .f32 0x47435000#32)

theorem W9_v29 (c : Dev nD) : W9 m ρ c (Proc.devRef .tc main_v29)
    = Host.divf (W8 m ρ c (Proc.devRef .tc main_v27_1)) (divisor (F := F)) := by
  dsimp only [W9, hostOps2]
  after_results
  rfl

theorem W9_v33 (c : Dev nD) : W9 m ρ c (Proc.devRef .tc main_v33)
    = subf (Host.divf (W8 m ρ c (Proc.devRef .tc main_v27_2)) (divisor (F := F)))
        (mulf (Host.divf (W8 m ρ c (Proc.devRef .tc main_v27_1)) (divisor (F := F)))
          (Host.divf (W8 m ρ c (Proc.devRef .tc main_v27_1)) (divisor (F := F)))) := by
  dsimp only [W9, hostOps2]
  after_results
  rfl

theorem W9_v34 (c : Dev nD) : W9 m ρ c (Proc.devRef .tc main_v34)
    = shapeCast S1x128 (m ((c : Thread nD τ).loc main_arg6)) shapeCasts_S128_S1x128 := by
  rw [← W8_arg6 m ρ c]
  dsimp only [W9, hostOps2]
  after_results
  rfl

theorem W9_v35 (c : Dev nD) : W9 m ρ c (Proc.devRef .tc main_v35)
    = shapeCast S1x128 (m ((c : Thread nD τ).loc main_arg7)) shapeCasts_S128_S1x128 := by
  rw [← W8_arg7 m ρ c]
  dsimp only [W9, hostOps2]
  after_results
  rfl

theorem W9_v36 (c : Dev nD) : W9 m ρ c (Proc.devRef .tc main_v36)
    = shapeCast S1x1 (m ((c : Thread nD τ).loc main_arg8)) shapeCasts_S1_S1x1 := by
  rw [← W8_arg8 m ρ c]
  dsimp only [W9, hostOps2]
  after_results
  rfl

end Cert.KernelIdeal.KHost

end
-- ==== Proof.BridgeHost.lean ====
/-
  The host chains the two programs share, as equal functions: the kernel program's degree normaliser and neighbour
  aggregation are, operation for operation, the reference's stages of the same names.
-/
import proofs.«154972_j25031069401690_1_alg».proof.Proof.KHost
import proofs.«154972_j25031069401690_1_alg».proof.Proof.RefRead

noncomputable section

set_option maxRecDepth 16384

namespace Cert.BridgeHost

open Cert.KernelIdeal Cert.KernelIdeal.Gen
open Idealize.ShloMosaic Idealize.ShloMosaic.TcCoe Idealize.SL.Sem

variable {F : FTy → Type} [FloatOps F]

/-- The degree normaliser of the source indices is the reference's stage. -/
theorem norm_src (idx : IVec S800000 32) : KHost.normCol (F := F) idx = Cert.ReferenceIdeal.Read.val_main_v10 (F := F) idx := by
  unfold Cert.ReferenceIdeal.Read.val_main_v10 Cert.ReferenceIdeal.Read.val_main_v9 Cert.ReferenceIdeal.Read.val_main_v4 Cert.ReferenceIdeal.Read.val_main_call0_v1 Cert.ReferenceIdeal.Read.val_main_call0_v0
    Cert.ReferenceIdeal.Read.val_main_cst_1 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst
    KHost.normCol
  rfl

/-- The degree normaliser of the destination indices is the reference's stage. -/
theorem norm_dst (idx : IVec S800000 32) : KHost.normCol (F := F) idx = Cert.ReferenceIdeal.Read.val_main_v12 (F := F) idx := by
  unfold Cert.ReferenceIdeal.Read.val_main_v12 Cert.ReferenceIdeal.Read.val_main_v11 Cert.ReferenceIdeal.Read.val_main_v8 Cert.ReferenceIdeal.Read.val_main_call1_v1 Cert.ReferenceIdeal.Read.val_main_call1_v0
    Cert.ReferenceIdeal.Read.val_main_cst_3 Cert.ReferenceIdeal.Read.val_main_v7 Cert.ReferenceIdeal.Read.val_main_v5 Cert.ReferenceIdeal.Read.val_main_cst_2 Cert.ReferenceIdeal.Read.val_main_v6 Cert.ReferenceIdeal.Read.val_main_v0 Cert.ReferenceIdeal.Read.val_main_cst
    KHost.normCol
  rfl

/-- The neighbour aggregation of a projection is the reference's scatter-add of the gathered rows: the same
    operations with the reference's dimension records. -/
theorem agg_chain (h : FVec F S50000x128 .bf16) (src dst : IVec S800000 32) :
    KHost.aggOf (F := F) h src dst
      = Host.scatterAdd Cert.ReferenceIdeal.scatter_S50000x128_S800000x1_S800000x128_1_0_0_1 (Cert.ReferenceIdeal.Read.val_main_v23 (F := F))
          (Cert.ReferenceIdeal.Read.val_main_v24 (F := F) dst)
          (extf .f32 (Host.gather Cert.ReferenceIdeal.gather_S50000x128_S800000x1_S800000x128_1_0_n_n_0_1_1128 h
            (Cert.ReferenceIdeal.Read.val_main_v21 (F := F) src)) bitsLt_bf16_f32) := by
  unfold Cert.ReferenceIdeal.Read.val_main_v24 Cert.ReferenceIdeal.Read.val_main_v23 Cert.ReferenceIdeal.Read.val_main_cst_5 Cert.ReferenceIdeal.Read.val_main_v21
    Cert.ReferenceIdeal.Read.val_main_v20 Cert.ReferenceIdeal.Read.val_main_v19 Cert.ReferenceIdeal.Read.val_main_v18 Cert.ReferenceIdeal.Read.val_main_c_4 Cert.ReferenceIdeal.Read.val_main_v17 Cert.ReferenceIdeal.Read.val_main_v16 Cert.ReferenceIdeal.Read.val_main_c
    KHost.aggOf
  rfl

/-- The reference's aggregate is the scatter-add of its gathered projection. -/
theorem v25_unfold (x0 : (⟨Cert.ReferenceIdeal.S50000x128, .f32⟩ : BufTy).Contents (Elt F)) (x1 x2 : (⟨Cert.ReferenceIdeal.S800000, .i32⟩ : BufTy).Contents (Elt F))
    (x3 : (⟨Cert.ReferenceIdeal.S128x128, .f32⟩ : BufTy).Contents (Elt F)) :
    Cert.ReferenceIdeal.Read.val_main_v25 (F := F) x0 x1 x2 x3
      = Host.scatterAdd Cert.ReferenceIdeal.scatter_S50000x128_S800000x1_S800000x128_1_0_0_1 (Cert.ReferenceIdeal.Read.val_main_v23 (F := F))
          (Cert.ReferenceIdeal.Read.val_main_v24 (F := F) x2)
          (Host.gather Cert.ReferenceIdeal.gather_S50000x128_S800000x1_S800000x128_1_0_n_n_0_1_1128 (Cert.ReferenceIdeal.Read.val_main_v15 (F := F) x0 x1 x3)
            (Cert.ReferenceIdeal.Read.val_main_v21 (F := F) x1)) := by
  unfold Cert.ReferenceIdeal.Read.val_main_v25 Cert.ReferenceIdeal.Read.val_main_v22
  rfl

end Cert.BridgeHost

end
-- ==== Proof.Region0.lean ====
/-
  The projection kernel's result array: row `i`, column `j` holds the sum over `k` of
  `(feat[i, k] · norm[i, 0]) · W[k, j]` — each 5000-row block is one matrix product of the scaled block with the
  whole weight matrix, the ten blocks tile the rows, and the changes of float format are the identity on extended reals.
-/
import proofs.«154972_j25031069401690_1_alg».proof.Proof.Gen.KernelIdeal.Frame
import proofs.«154972_j25031069401690_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- One term of the projection: a feature scaled by its row's norm, times a weight. -/
def term (x n w : EReal) : EReal := (x * n) * w

/-- The array's elements as extended reals (the element type of every float format at the ideal instance). -/
def rd {S : Shape} {φ : FTy} (x : FVec Ideal S φ) (i : S.Idx) : EReal := x i

/-! ## The block product read at an index -/

/-- The left operand's row coordinate at an output index is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate at an output index is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000×128 by 128×128 product into the zero accumulator, read at `[p, q]`: the sum over the shared axis of the
    products of row `p` of the left with column `q` of the right. -/
theorem matmul_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- A one-column block spread across 128 columns reads, at `[p, k]`, the column's entry of row `p`. -/
theorem column_at (x1 : Vec Ideal S5000x1 .f32) (p : Fin 5000) (k : Fin 128) :
    broadcastTo S5000x128 (shapeCast S5000x1 x1 shapeCasts_S5000x1_S5000x1) broadcasts_S5000x1_S5000x128 (ix2 p k)
      = x1 (ix2 p 0) := by
  rw [shapeCast_self]
  exact broadcastTo_apply x1 broadcasts_S5000x1_S5000x128 (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The body's stored block at `[p, q]`: the sum over `k` of the scaled feature times the weight. -/
theorem pay_at (x0 : Vec Ideal S5000x128 .f32) (x1 : Vec Ideal S5000x1 .f32) (x6 : Vec Ideal S128x128 .f32) (p : Fin 5000) (q : Fin 128) :
    k0_pay1 (F := Ideal) x0 x1 x6 (ix2 p q) = ∑ k : Fin 128, term (x0 (ix2 p k)) (x1 (ix2 p 0)) (x6 (ix2 k q)) := by
  unfold k0_pay1
  refine (matmul_at _ _ p q).trans ?_
  refine Finset.sum_congr rfl fun k _ => ?_
  show (x0 (ix2 p k) * broadcastTo S5000x128 (shapeCast S5000x1 x1 shapeCasts_S5000x1_S5000x1) broadcasts_S5000x1_S5000x128 (ix2 p k)) * x6 (ix2 k q) = _
  rw [column_at]
  rfl

/-- The stored block as a function of its index. -/
theorem pay_fun (x0 : Vec Ideal S5000x128 .f32) (x1 : Vec Ideal S5000x1 .f32) (x6 : Vec Ideal S128x128 .f32) :
    k0_pay1 (F := Ideal) x0 x1 x6
      = fun j : S5000x128.Idx => ∑ k : Fin 128, term (x0 (ix2 (j 0) k)) (x1 (ix2 (j 0) 0)) (x6 (ix2 k (j 1))) := by
  funext j
  obtain ⟨p, q, rfl⟩ : ∃ (p : Fin 5000) (q : Fin 128), j = ix2 p q := ⟨j 0, j 1, eq_ix2 j⟩
  exact pay_at x0 x1 x6 p q

/-! ## From the ten blocks to the array -/

theorem hz : (![0, 0] : Fin 2 → Nat) = fun _ => 0 := funext fun a => by fin_cases a <;> rfl

/-- The whole result array: entry `[r, q]` is the sum over `k` of the scaled feature `[r, k]` times the weight `[k, q]`. -/
def G (c : Dev nD) : S50000x128.Idx → EReal := fun i =>
  ∑ k : Fin 128, term (rd (S := S50000x128) (φ := .f32) (V c main_arg0) (ix2 (i 0) k)) (rd (S := S50000x1) (φ := .f32) (V c main_v10) (ix2 (i 0) 0))
    (rd (S := S128x128) (φ := .f32) (V c main_arg3) (ix2 k (i 1)))

/-- Where each window's block sits at point `t`: the features, the norms and the result at row block `t`, the
    weights whole — decided over the ten points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole result array. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S5000x1) hz, View.ld_unit_zero (S := S128x128) hz]
  obtain ⟨e00, e01, e10, e11, e20, e21, e30, e31⟩ := idx_facts t
  funext y
  refine (congrFun (pay_fun (iblk0 V c 0 t) (iblk0 V c 1 t) (iblk0 V c 2 t)) y).trans ?_
  show ∑ k : Fin 128, term (iblk0 V c 0 t (ix2 (y 0) k)) (iblk0 V c 1 t (ix2 (y 0) 0)) (iblk0 V c 2 t (ix2 k (y 1)))
    = G V c (((cfg0.win 3).blk t).view.emb y)
  unfold G
  refine Finset.sum_congr rfl fun k _ => ?_
  have h0 : iblk0 V c 0 t (ix2 (y 0) k) = V c main_arg0 (ix2 ((((cfg0.win 3).blk t).view.emb y) 0) k) := by
    show V c main_arg0 (((cfg0.win 0).blk t).view.emb (ix2 (y 0) k)) = _
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega
  have h1 : iblk0 V c 1 t (ix2 (y 0) 0) = V c main_v10 (ix2 ((((cfg0.win 3).blk t).view.emb y) 0) 0) := by
    show V c main_v10 (((cfg0.win 1).blk t).view.emb (ix2 (y 0) 0)) = _
    refine congrArg (V c main_v10) (funext fun a => Fin.ext ?_)
    match a with
    | ⟨0, _⟩ => show win0_1.index t (0 : Fin 2) * 5000 + 1 * (y 0).val = win0_3.index t (0 : Fin 2) * 5000 + 1 * (y 0).val; omega
    | ⟨1, _⟩ => show win0_1.index t (1 : Fin 2) * 1 + 1 * 0 = 0; omega
  have h2 : iblk0 V c 2 t (ix2 k (y 1)) = V c main_arg3 (ix2 k ((((cfg0.win 3).blk t).view.emb y) 1)) := by
    show V c main_arg3 (((cfg0.win 2).blk t).view.emb (ix2 k (y 1))) = _
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * (y 1).val = win0_3.index t (1 : Fin 2) * 128 + 1 * (y 1).val; omega
  rw [h0, h1, h2]
  rfl

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- The ten row blocks cover the array: row `r` lies in block `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array after the region is the whole result array. -/
theorem arr_eq (c : Dev nD) : (dat0 (F := Ideal) V c).arrAt 3 cfg0.N = G V c :=
  (dat0 (F := Ideal) V c).arrAt_eq_of_cover 3 (G V c) (fun t _ => flushed_eq V c t) cover

/-- The projection's result array after the region, read at `[i, j]`. -/
theorem final (c : Dev nD) (i : Fin 50000) (j : Fin 128) :
    rd (S := S50000x128) (φ := .bf16) ((dat0 (F := Ideal) V c).arrAt 3 cfg0.N) (ix2 i j)
      = ∑ k : Fin 128, term (rd (S := S50000x128) (φ := .f32) (V c main_arg0) (ix2 i k)) (rd (S := S50000x1) (φ := .f32) (V c main_v10) (ix2 i 0))
          (rd (S := S128x128) (φ := .f32) (V c main_arg3) (ix2 k j)) := by
  show (dat0 (F := Ideal) V c).arrAt 3 cfg0.N (ix2 i j) = _
  rw [arr_eq]
  rfl

end Cert.KernelIdeal.Region0

end
-- ==== Proof.Region1.lean ====
/-
  The post-aggregation kernel's three result arrays. Row `i`, column `j` of the first holds the activation
  `prelu a (agg[i, j] · nd[i, 0] + b[0, j])`; each 5000-row block is written at its own point. The other two are one
  [1 × 128] block that every point revisits: reset to zero at the first point, then at each point the column sums of
  the block's activations (of their squares) are added, so after the last point they hold the ordered sum of the ten
  blocks' column sums.
-/
import proofs.«154972_j25031069401690_1_alg».proof.Proof.Gen.KernelIdeal.Frame
import proofs.«154972_j25031069401690_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- The activation at row `i`, column `j`, from the region's entry contents. -/
def h1 (c : Dev nD) (i : Fin 50000) (j : Fin 128) : EReal :=
  Cert.Spec.act ((V c main_v24 : S50000x128.Idx → EReal) (ix2 i j)) ((V c main_v12 : S50000x1.Idx → EReal) (ix2 i 0))
    ((V c main_v25 : S1x128.Idx → EReal) (ix2 0 j)) ((V c main_v26 : S1x1.Idx → EReal) (ix2 0 0))

/-! ## What the body leaves in each output's buffer, for any float values -/

section Gen
variable {F : FTy → Type} [FloatOps F]

/-- The zero offsets of a rank-two access. -/
theorem hz : (![0, 0] : Fin 2 → Nat) = fun _ => 0 := funext fun a => by fin_cases a <;> rfl

/-- At a later point the body leaves the activation block of its input blocks in the activations' buffer. -/
theorem out_B_4 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S1x1 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond1_0 i) (x0 : Vec F S5000x128 .f32) (x1 : Vec F S5000x1 .f32) (x2 : Vec F S1x128 .f32) (x3 : Vec F S1x1 .f32) (xo5 xo6 : Vec F S1x128 .f32) :
    out1_B_4 c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S1x128) hz, View.ld_unit_zero (S := S1x1) hz]

/-- At a later point the body leaves, in the column sums' buffer holding `xo5`, `xo5` plus the block's column sums. -/
theorem out_B_5 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S1x1 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond1_0 i) (x0 : Vec F S5000x128 .f32) (x1 : Vec F S5000x1 .f32) (x2 : Vec F S1x128 .f32) (x3 : Vec F S1x1 .f32) (xo5 xo6 : Vec F S1x128 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S1x128) hz, View.ld_unit_zero (S := S1x1) hz]

/-- At a later point the body leaves, in the buffer of the sums of squares holding `xo6`, `xo6` plus the column sums of the block's squares. -/
theorem out_B_6 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S1x1 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond1_0 i) (x0 : Vec F S5000x128 .f32) (x1 : Vec F S5000x1 .f32) (x2 : Vec F S1x128 .f32) (x3 : Vec F S1x1 .f32) (xo5 xo6 : Vec F S1x128 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  rw [View.canon_unit_zero hz]
  sl_unfold_words
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S1x128) hz, View.ld_unit_zero (S := S1x1) hz]

/-- At the first point the body leaves the same activation block. -/
theorem out_A_4 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S1x1 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond1_0 i) (x0 : Vec F S5000x128 .f32) (x1 : Vec F S5000x1 .f32) (x2 : Vec F S1x128 .f32) (x3 : Vec F S1x1 .f32) :
    out1_A_4 c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  rw [View.canon_unit_zero hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S1x128) hz, View.ld_unit_zero (S := S1x1) hz]

/-- At the first point the body stores the zero row, reads it back, and leaves zero plus the block's column sums. -/
theorem out_A_5 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S1x1 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond1_0 i) (x0 : Vec F S5000x128 .f32) (x1 : Vec F S5000x1 .f32) (x2 : Vec F S1x128 .f32) (x3 : Vec F S1x1 .f32) :
    out1_A_5 c i a1 h1 a2 h2 a3 h3 a4 h4 a5 h5 a6 h6 a7 h7 hc x0 x1 x2 x3 = k1_pay4 x0 x1 x2 x3 (k1_pay1 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S1x128) hz, View.ld_unit_zero (S := S1x1) hz]

/-- At the first point likewise for the sums of squares: zero plus the column sums of the block's squares. -/
theorem out_A_6 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S1x1 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond1_0 i) (x0 : Vec F S5000x128 .f32) (x1 : Vec F S5000x1 .f32) (x2 : Vec F S1x128 .f32) (x3 : Vec F S1x1 .f32) :
    out1_A_6 c i a1 h1 a2 h2 a3 h3 a4 h4 a5 h5 a6 h6 a7 h7 hc x0 x1 x2 x3 = k1_pay5 x0 x1 x2 x3 (k1_pay2 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S1x128) hz, View.ld_unit_zero (S := S1x1) hz]

end Gen

/-! ## The payloads read at an index, over the extended reals -/

section AtIdeal

/-- A column [a, 1] spread over [a, b] reads, at (p, q), the column's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a [1, 1] array, extracted at position (0, 0). -/
theorem extractAt_00 {α : Type} (x : S1x1.Idx → α) (h : ∀ a, (![0, 0] : Fin 2 → Nat) a < S1x1.size a) :
    extractAt ![0, 0] x h = x (ix2 (0 : Fin 1) (0 : Fin 1)) := by
  unfold extractAt
  refine congrArg x (funext fun a => ?_)
  match a with
  | ⟨0, _⟩ => rfl
  | ⟨1, _⟩ => rfl

/-- The activation block at an index: the scalar activation of the four operands read there. -/
theorem pay3_apply (x0 : Vec Ideal S5000x128 .f32) (x1 : Vec Ideal S5000x1 .f32) (x2 : Vec Ideal S1x128 .f32) (x3 : Vec Ideal S1x1 .f32)
    (p : Fin 5000) (q : Fin 128) :
    (k1_pay3 x0 x1 x2 x3 : S5000x128.Idx → EReal) (ix2 p q)
      = Cert.Spec.act (x0 (ix2 p q)) (x1 (ix2 p (0 : Fin 1))) (x2 (ix2 (0 : Fin 1) q)) (x3 (ix2 (0 : Fin 1) (0 : Fin 1))) := by
  unfold k1_pay3 Cert.Spec.act Cert.Spec.prelu
  simp only [select_apply, cmpf_apply, mulf_apply, addf_apply, broadcast_apply, shapeCast_self]
  rw [broadcastTo_a1_ab_apply, broadcastTo_1b_ab_apply, extractAt_00]
  rfl

/-- The windows' index maps over the ten points: the row-blocked windows sit at block (t, 0), the whole-array ones at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t`, read at `(p, q)`: the array at row `5000 t + p`, column `q`. -/
theorem iblk0_apply (c : Dev nD) (t : Fin cfg1.N) (p : Fin 5000) (q : Fin 128) (hp : 5000 * t.val + p.val < 50000) :
    (iblk1 V c 0 t : S5000x128.Idx → EReal) (ix2 p q) = (V c main_v24 : S50000x128.Idx → EReal) (ix2 ⟨5000 * t.val + p.val, hp⟩ q) := by
  obtain ⟨e0, e1, -⟩ := idx_facts t
  unfold iblk1
  rw [View.read_apply]
  show V c main_v24 _ = V c main_v24 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * q.val = q.val; rw [e1]; omega

/-- Window 1's block at point `t`, read at `(p, 0)`: the norm column at row `5000 t + p`. -/
theorem iblk1_apply (c : Dev nD) (t : Fin cfg1.N) (p : Fin 5000) (hp : 5000 * t.val + p.val < 50000) :
    (iblk1 V c 1 t : S5000x1.Idx → EReal) (ix2 p (0 : Fin 1)) = (V c main_v12 : S50000x1.Idx → EReal) (ix2 ⟨5000 * t.val + p.val, hp⟩ (0 : Fin 1)) := by
  obtain ⟨-, -, e0, e1, -⟩ := idx_facts t
  unfold iblk1
  rw [View.read_apply]
  show V c main_v12 _ = V c main_v12 _
  congr 1
  funext a
  apply Fin.ext
  match a with
  | ⟨0, _⟩ => show win1_1.index t 0 * 5000 + 1 * p.val = 5000 * t.val + p.val; rw [e0]; omega
  | ⟨1, _⟩ => show win1_1.index t 1 * 1 + 1 * 0 = 0; rw [e1]

/-- Window 2's block is the whole bias row at every point. -/
theorem iblk2_apply (c : Dev nD) (t : Fin cfg1.N) (q : Fin 128) :
    (iblk1 V c 2 t : S1x128.Idx → EReal) (ix2 (0 : Fin 1) q) = (V c main_v25 : S1x128.Idx → EReal) (ix2 (0 : Fin 1) q) := by
  obtain ⟨-, -, -, -, e0, e1, -⟩ := idx_facts t
  unfold iblk1
  rw [View.read_apply]
  show V c main_v25 _ = V c main_v25 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- Window 3's block is the one slope element at every point. -/
theorem iblk3_apply (c : Dev nD) (t : Fin cfg1.N) :
    (iblk1 V c 3 t : S1x1.Idx → EReal) (ix2 (0 : Fin 1) (0 : Fin 1)) = (V c main_v26 : S1x1.Idx → EReal) (ix2 (0 : Fin 1) (0 : Fin 1)) := by
  obtain ⟨-, -, -, -, -, -, e0, e1, -⟩ := idx_facts t
  unfold iblk1
  rw [View.read_apply]
  show V c main_v26 _ = V c main_v26 _
  congr 1
  funext a
  apply Fin.ext
  match a with
  | ⟨0, _⟩ => show win1_3.index t 0 * 1 + 1 * 0 = 0; rw [e0]
  | ⟨1, _⟩ => show win1_3.index t 1 * 1 + 1 * 0 = 0; rw [e1]

/-- The block's activations at point `t`: row `p` of the block is row `5000 t + p` of the array. -/
theorem blk_h1 (c : Dev nD) (t : Fin cfg1.N) (p : Fin 5000) (q : Fin 128) (hp : 5000 * t.val + p.val < 50000) :
    (k1_pay3 (iblk1 V c 0 t) (iblk1 V c 1 t) (iblk1 V c 2 t) (iblk1 V c 3 t) : S5000x128.Idx → EReal) (ix2 p q)
      = h1 V c ⟨5000 * t.val + p.val, hp⟩ q := by
  rw [pay3_apply, iblk0_apply V c t p q hp, iblk1_apply V c t p hp, iblk2_apply V c t q, iblk3_apply V c t]
  rfl

end AtIdeal

/-! ## The activations' array: each point writes its own block -/

section AtIdeal2

/-- The activations as one function of the whole array's index. -/
def G4 (c : Dev nD) : S50000x128.Idx → EReal := fun i => h1 V c ⟨(i 0).val, idx2_lt0 i⟩ ⟨(i 1).val, idx2_lt1 i⟩

/-- Whichever case a point is, the body leaves the activation block of the point's input blocks in output 4's buffer. -/
theorem outsAt_4 (c : Dev nD) (t : Fin cfg1.N) :
    (outsAt1 V c t.val t.isLt).1 = k1_pay3 (iblk1 V c 0 t) (iblk1 V c 1 t) (iblk1 V c 2 t) (iblk1 V c 3 t) := by
  by_cases h0 : t.val % 10 = 0
  · rw [outsAt1_A V c t h0, out_A_4]
  · rw [outsAt1_B V c t h0, out_B_4]

/-- What point `t` writes back to the activations' array is block `t` of `G4`. -/
theorem flushed4_eq (c : Dev nD) (t : Fin cfg1.N) :
    (dat1 (F := Ideal) V c).flushed 4 t = ((cfg1.win 4).blk t).view.read (Elt Ideal) (G4 V c) := by
  show (cfg1.win 4).cut (grid1.coords t) ((dat1 (F := Ideal) V c).after 4 t) = _
  rw [after1_4, outsAt_4]
  obtain ⟨-, -, -, -, -, -, -, -, e8, e9⟩ := idx_facts t
  have hN : cfg1.N = 10 := N_1
  have ht : t.val < 10 := hN ▸ t.isLt
  funext j
  have hj0 : (j 0).val < 5000 := (j 0).isLt
  have hj1 : (j 1).val < 128 := (j 1).isLt
  have hp : 5000 * t.val + (j 0).val < 50000 := by omega
  have hx : (cfg1.win 4).xinj (grid1.coords t) j = ix2 (⟨(j 0).val, hj0⟩ : Fin 5000) (⟨(j 1).val, hj1⟩ : Fin 128) := by
    funext a
    match a with
    | ⟨0, _⟩ => rfl
    | ⟨1, _⟩ => rfl
  show (k1_pay3 (iblk1 V c 0 t) (iblk1 V c 1 t) (iblk1 V c 2 t) (iblk1 V c 3 t) : S5000x128.Idx → EReal) ((cfg1.win 4).xinj (grid1.coords t) j)
    = G4 V c (((cfg1.win 4).blk t).view.emb j)
  rw [hx, blk_h1 V c t ⟨(j 0).val, hj0⟩ ⟨(j 1).val, hj1⟩ hp]
  unfold G4
  congr 1 <;> apply Fin.ext
  · show 5000 * t.val + (j 0).val = win1_4.index t 0 * 5000 + 1 * (j 0).val
    rw [e8]; omega
  · show (j 1).val = win1_4.index t 1 * 128 + 1 * (j 1).val
    rw [e9]; omega

/-- An index of the activations' array is in point `t`'s block iff each coordinate is in the block's range. -/
theorem mem_blk4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v27_0).slice (win1_4.rect t)).set ↔ _
  rw [View.set_slice_whole, Rect.mem_set_unit]
  exact Iff.rfl

/-- Row `r` of the array lies in the block of point `r / 5000`. -/
theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have hlt : (i 0).val / 5000 < cfg1.N := by rw [hN]; omega
  refine ⟨⟨(i 0).val / 5000, hlt⟩, flush1_4 _, ?_⟩
  rw [mem_blk4]
  obtain ⟨-, -, -, -, -, -, -, -, e8, e9⟩ := idx_facts ⟨(i 0).val / 5000, hlt⟩
  intro a
  match a with
  | ⟨0, _⟩ =>
    show win1_4.index ⟨(i 0).val / 5000, hlt⟩ 0 * 5000 ≤ (i 0).val ∧ (i 0).val < win1_4.index ⟨(i 0).val / 5000, hlt⟩ 0 * 5000 + 5000
    rw [e8]; dsimp only; omega
  | ⟨1, _⟩ =>
    show win1_4.index ⟨(i 0).val / 5000, hlt⟩ 1 * 128 ≤ (i 1).val ∧ (i 1).val < win1_4.index ⟨(i 0).val / 5000, hlt⟩ 1 * 128 + 128
    rw [e9]; omega

end AtIdeal2

/-! ## The two running sums, point by point -/

section AtIdeal3

/-- The column sums of a [5000, 128] block as a [1, 128] row: at column `j`, the sum of the block's column `j`. -/
theorem colsum_apply (src : FVec Ideal S5000x128 .f32) (j : Fin 128) :
    shapeCast S1x128 (multiReduction (F := Ideal) .add [0] S128 src 0x00000000#32 reduces_S5000x128_S128 (.inl rfl) rfl) shapeCasts_S128_S1x128
        (ix2 (0 : Fin 1) j)
      = ∑ k : Fin 5000, src (ix2 k j) := by
  rw [shapeCast_a_1a_apply]
  refine (Ideal.multiReduction_add_single src 0x00000000#32 reduces_S5000x128_S128 (.inl rfl) rfl (ix1 j)).trans ?_
  refine Finset.sum_congr rfl fun k _ => congrArg src ?_
  funext a
  apply Fin.ext
  match a with
  | ⟨0, _⟩ => rfl
  | ⟨1, _⟩ => rfl

/-- The running column sums after a point: what was there plus the block's column sums. -/
theorem pay4_apply (x0 : Vec Ideal S5000x128 .f32) (x1 : Vec Ideal S5000x1 .f32) (x2 : Vec Ideal S1x128 .f32) (x3 : Vec Ideal S1x1 .f32)
    (acc : Vec Ideal S1x128 .f32) (j : Fin 128) :
    (k1_pay4 x0 x1 x2 x3 acc : S1x128.Idx → EReal) (ix2 (0 : Fin 1) j)
      = acc (ix2 (0 : Fin 1) j) + ∑ k : Fin 5000, (k1_pay3 x0 x1 x2 x3 : S5000x128.Idx → EReal) (ix2 k j) := by
  unfold k1_pay4
  simp only [addf_apply, shapeCast_self]
  rw [colsum_apply]

/-- The running column sums of squares after a point: what was there plus the column sums of the block's squares. -/
theorem pay5_apply (x0 : Vec Ideal S5000x128 .f32) (x1 : Vec Ideal S5000x1 .f32) (x2 : Vec Ideal S1x128 .f32) (x3 : Vec Ideal S1x1 .f32)
    (acc : Vec Ideal S1x128 .f32) (j : Fin 128) :
    (k1_pay5 x0 x1 x2 x3 acc : S1x128.Idx → EReal) (ix2 (0 : Fin 1) j)
      = acc (ix2 (0 : Fin 1) j) + ∑ k : Fin 5000, (k1_pay3 x0 x1 x2 x3 : S5000x128.Idx → EReal) (ix2 k j) * (k1_pay3 x0 x1 x2 x3 : S5000x128.Idx → EReal) (ix2 k j) := by
  unfold k1_pay5
  simp only [addf_apply, shapeCast_self]
  rw [colsum_apply]
  simp only [mulf_apply]

/-- The reset stores the zero row. -/
theorem pay1_apply (i : S1x128.Idx) : (k1_pay1 (F := Ideal) : S1x128.Idx → EReal) i = 0 := by
  unfold k1_pay1
  simp only [broadcast_apply]
  exact Ideal.ofBits_zero_f32

/-- The second reset stores the zero row too. -/
theorem pay2_apply (i : S1x128.Idx) : (k1_pay2 (F := Ideal) : S1x128.Idx → EReal) i = 0 := by
  unfold k1_pay2
  simp only [broadcast_apply]
  exact Ideal.ofBits_zero_f32

/-- Column `j` of block `t`'s activations, summed: the rows `5000 t … 5000 t + 4999` of the array's column. -/
theorem blk_colsum (c : Dev nD) (t : Fin cfg1.N) (j : Fin 128) :
    ∑ k : Fin 5000, (k1_pay3 (iblk1 V c 0 t) (iblk1 V c 1 t) (iblk1 V c 2 t) (iblk1 V c 3 t) : S5000x128.Idx → EReal) (ix2 k j)
      = ∑ r : Fin 5000, Cert.Spec.ext (fun i => h1 V c i j) (5000 * t.val + r.val) := by
  have hN : cfg1.N = 10 := N_1
  have ht : t.val < 10 := hN ▸ t.isLt
  refine Finset.sum_congr rfl fun k _ => ?_
  have hp : 5000 * t.val + k.val < 50000 := by have := k.isLt; omega
  rw [blk_h1 V c t k j hp]
  unfold Cert.Spec.ext
  rw [dif_pos hp]

/-- Likewise for the squares. -/
theorem blk_colsumsq (c : Dev nD) (t : Fin cfg1.N) (j : Fin 128) :
    ∑ k : Fin 5000, (k1_pay3 (iblk1 V c 0 t) (iblk1 V c 1 t) (iblk1 V c 2 t) (iblk1 V c 3 t) : S5000x128.Idx → EReal) (ix2 k j)
        * (k1_pay3 (iblk1 V c 0 t) (iblk1 V c 1 t) (iblk1 V c 2 t) (iblk1 V c 3 t) : S5000x128.Idx → EReal) (ix2 k j)
      = ∑ r : Fin 5000, Cert.Spec.ext (fun i => h1 V c i j * h1 V c i j) (5000 * t.val + r.val) := by
  have hN : cfg1.N = 10 := N_1
  have ht : t.val < 10 := hN ▸ t.isLt
  refine Finset.sum_congr rfl fun k _ => ?_
  have hp : 5000 * t.val + k.val < 50000 := by have := k.isLt; omega
  rw [blk_h1 V c t k j hp]
  unfold Cert.Spec.ext
  rw [dif_pos hp]

/-- After point `n` the column sums' buffer holds the ordered sum of the blocks' column sums up to `n`: by induction on the point. -/
theorem outsAt_sum (c : Dev nD) (j : Fin 128) : ∀ (n : ℕ) (h : n < cfg1.N),
    ((outsAt1 V c n h).2.1 : S1x128.Idx → EReal) (ix2 (0 : Fin 1) j)
      = Cert.Spec.chain (fun t => ∑ r : Fin 5000, Cert.Spec.ext (fun i => h1 V c i j) (5000 * t + r.val)) n
  | 0, h => by
    have e5 : (outsAt1 V c 0 h).2.1
        = k1_pay4 (iblk1 V c 0 ⟨0, h⟩) (iblk1 V c 1 ⟨0, h⟩) (iblk1 V c 2 ⟨0, h⟩) (iblk1 V c 3 ⟨0, h⟩) (k1_pay1 (F := Ideal)) :=
      by rw [outsAt1_A V c ⟨0, h⟩ rfl, out_A_5]
    rw [e5, pay4_apply, pay1_apply, blk_colsum V c ⟨0, h⟩ j]
    rfl
  | n + 1, h => by
    have hN : cfg1.N = 10 := N_1
    have hB : ¬(⟨n + 1, h⟩ : Fin cfg1.N).val % 10 = 0 := by dsimp only; omega
    have e5 : (outsAt1 V c (n + 1) h).2.1
        = k1_pay4 (iblk1 V c 0 ⟨n + 1, h⟩) (iblk1 V c 1 ⟨n + 1, h⟩) (iblk1 V c 2 ⟨n + 1, h⟩) (iblk1 V c 3 ⟨n + 1, h⟩)
            (outsAt1 V c n (Nat.lt_of_succ_lt h)).2.1 :=
      by rw [outsAt1_B V c ⟨n + 1, h⟩ hB, out_B_5]; rfl
    rw [e5, pay4_apply, blk_colsum V c ⟨n + 1, h⟩ j, outsAt_sum c j n]
    rfl

/-- After point `n` the buffer of the sums of squares holds the ordered sum of the blocks' column sums of squares up to `n`. -/
theorem outsAt_sumsq (c : Dev nD) (j : Fin 128) : ∀ (n : ℕ) (h : n < cfg1.N),
    ((outsAt1 V c n h).2.2 : S1x128.Idx → EReal) (ix2 (0 : Fin 1) j)
      = Cert.Spec.chain (fun t => ∑ r : Fin 5000, Cert.Spec.ext (fun i => h1 V c i j * h1 V c i j) (5000 * t + r.val)) n
  | 0, h => by
    have e6 : (outsAt1 V c 0 h).2.2
        = k1_pay5 (iblk1 V c 0 ⟨0, h⟩) (iblk1 V c 1 ⟨0, h⟩) (iblk1 V c 2 ⟨0, h⟩) (iblk1 V c 3 ⟨0, h⟩) (k1_pay2 (F := Ideal)) :=
      by rw [outsAt1_A V c ⟨0, h⟩ rfl, out_A_6]
    rw [e6, pay5_apply, pay2_apply, blk_colsumsq V c ⟨0, h⟩ j]
    rfl
  | n + 1, h => by
    have hN : cfg1.N = 10 := N_1
    have hB : ¬(⟨n + 1, h⟩ : Fin cfg1.N).val % 10 = 0 := by dsimp only; omega
    have e6 : (outsAt1 V c (n + 1) h).2.2
        = k1_pay5 (iblk1 V c 0 ⟨n + 1, h⟩) (iblk1 V c 1 ⟨n + 1, h⟩) (iblk1 V c 2 ⟨n + 1, h⟩) (iblk1 V c 3 ⟨n + 1, h⟩)
            (outsAt1 V c n (Nat.lt_of_succ_lt h)).2.2 :=
      by rw [outsAt1_B V c ⟨n + 1, h⟩ hB, out_B_6]; rfl
    rw [e6, pay5_apply, blk_colsumsq V c ⟨n + 1, h⟩ j, outsAt_sumsq c j n]
    rfl

end AtIdeal3

/-! ## The two sums' arrays: one block, written back after the last point -/

section AtIdeal4

/-- The last point is point 9. -/
theorem h9lt : 9 < cfg1.N := by rw [show cfg1.N = 10 from N_1]; decide

/-- The one write-back of the column sums, after the last point, writes what the buffer holds then: the block is the whole array. -/
theorem flushed5_eq (c : Dev nD) (t : Fin cfg1.N) (hf : (cfg1.win 5).flush t = true) :
    (dat1 (F := Ideal) V c).flushed 5 t = ((cfg1.win 5).blk t).view.read (Elt Ideal) ((outsAt1 V c 9 h9lt).2.1 : S1x128.Idx → EReal) := by
  have hN : cfg1.N = 10 := N_1
  have h9 : t.val = 9 := by have := (flush1_5 t).mp hf; have := t.isLt; omega
  obtain rfl : t = t1_9 := Fin.ext h9
  show (cfg1.win 5).cut (grid1.coords t1_9) ((dat1 (F := Ideal) V c).after 5 t1_9) = _
  rw [after1_5]
  have hz' : (fun a => win1_5.index t1_9 a * main_v27_1.ty.shape.size a) = fun _ => 0 := funext fun a => by fin_cases a <;> decide +kernel
  exact (Memref.read_access_unit_zero (Elt Ideal) main_v27_1 hz' (fun a => by rw [congrFun hz' a]; simp) _).symm

/-- The last point's block covers the whole [1 × 128] array. -/
theorem cover5 (i : S1x128.Idx) : ∃ t : Fin cfg1.N, (cfg1.win 5).flush t = true ∧ i ∈ ((cfg1.win 5).blk t).view.set :=
  ⟨t1_9, (flush1_5 t1_9).mpr rfl, by
    show i ∈ ((View.whole main_v27_1).slice (win1_5.rect t1_9)).set
    rw [View.set_slice_whole, Rect.mem_set_unit]
    intro a
    have h0 : (i 0 : Nat) < 1 := (i 0).isLt
    have h1 : (i 1 : Nat) < 128 := (i 1).isLt
    match a with
    | ⟨0, _⟩ =>
      show win1_5.index t1_9 0 * win1_5.size 0 ≤ (i 0 : Nat) ∧ (i 0 : Nat) < win1_5.index t1_9 0 * win1_5.size 0 + win1_5.xsize (grid1.coords t1_9) 0
      rw [show win1_5.index t1_9 0 * win1_5.size 0 = 0 from by decide +kernel, show win1_5.xsize (grid1.coords t1_9) 0 = 1 from by decide +kernel]; omega
    | ⟨1, _⟩ =>
      show win1_5.index t1_9 1 * win1_5.size 1 ≤ (i 1 : Nat) ∧ (i 1 : Nat) < win1_5.index t1_9 1 * win1_5.size 1 + win1_5.xsize (grid1.coords t1_9) 1
      rw [show win1_5.index t1_9 1 * win1_5.size 1 = 0 from by decide +kernel, show win1_5.xsize (grid1.coords t1_9) 1 = 128 from by decide +kernel]; omega⟩

/-- The one write-back of the column sums of squares, after the last point, writes what the buffer holds then: the block is the whole array. -/
theorem flushed6_eq (c : Dev nD) (t : Fin cfg1.N) (hf : (cfg1.win 6).flush t = true) :
    (dat1 (F := Ideal) V c).flushed 6 t = ((cfg1.win 6).blk t).view.read (Elt Ideal) ((outsAt1 V c 9 h9lt).2.2 : S1x128.Idx → EReal) := by
  have hN : cfg1.N = 10 := N_1
  have h9 : t.val = 9 := by have := (flush1_6 t).mp hf; have := t.isLt; omega
  obtain rfl : t = t1_9 := Fin.ext h9
  show (cfg1.win 6).cut (grid1.coords t1_9) ((dat1 (F := Ideal) V c).after 6 t1_9) = _
  rw [after1_6]
  have hz' : (fun a => win1_6.index t1_9 a * main_v27_2.ty.shape.size a) = fun _ => 0 := funext fun a => by fin_cases a <;> decide +kernel
  exact (Memref.read_access_unit_zero (Elt Ideal) main_v27_2 hz' (fun a => by rw [congrFun hz' a]; simp) _).symm

/-- The last point's block covers the whole [1 × 128] array. -/
theorem cover6 (i : S1x128.Idx) : ∃ t : Fin cfg1.N, (cfg1.win 6).flush t = true ∧ i ∈ ((cfg1.win 6).blk t).view.set :=
  ⟨t1_9, (flush1_6 t1_9).mpr rfl, by
    show i ∈ ((View.whole main_v27_2).slice (win1_6.rect t1_9)).set
    rw [View.set_slice_whole, Rect.mem_set_unit]
    intro a
    have h0 : (i 0 : Nat) < 1 := (i 0).isLt
    have h1 : (i 1 : Nat) < 128 := (i 1).isLt
    match a with
    | ⟨0, _⟩ =>
      show win1_6.index t1_9 0 * win1_6.size 0 ≤ (i 0 : Nat) ∧ (i 0 : Nat) < win1_6.index t1_9 0 * win1_6.size 0 + win1_6.xsize (grid1.coords t1_9) 0
      rw [show win1_6.index t1_9 0 * win1_6.size 0 = 0 from by decide +kernel, show win1_6.xsize (grid1.coords t1_9) 0 = 1 from by decide +kernel]; omega
    | ⟨1, _⟩ =>
      show win1_6.index t1_9 1 * win1_6.size 1 ≤ (i 1 : Nat) ∧ (i 1 : Nat) < win1_6.index t1_9 1 * win1_6.size 1 + win1_6.xsize (grid1.coords t1_9) 1
      rw [show win1_6.index t1_9 1 * win1_6.size 1 = 0 from by decide +kernel, show win1_6.xsize (grid1.coords t1_9) 1 = 128 from by decide +kernel]; omega⟩

end AtIdeal4

/-- The activations' array after the region, read at `[i, j]`. -/
theorem final_h1 (c : Dev nD) (i : Fin 50000) (j : Fin 128) :
    ((dat1 (F := Ideal) V c).arrAt 4 cfg1.N : S50000x128.Idx → EReal) (ix2 i j) = h1 V c i j :=
  (congrFun ((dat1 (F := Ideal) V c).arrAt_eq_of_cover 4 (G4 V c) (fun t _ => flushed4_eq V c t) cover4) (ix2 i j)).trans rfl

/-- The column sums' array after the region, read at `[0, j]`: the ordered sum over the ten blocks of each block's
    column sum. -/
theorem final_sum (c : Dev nD) (j : Fin 128) :
    ((dat1 (F := Ideal) V c).arrAt 5 cfg1.N : S1x128.Idx → EReal) (ix2 0 j)
      = Cert.Spec.chain (fun t => ∑ r : Fin 5000, Cert.Spec.ext (fun i => h1 V c i j) (5000 * t + r.val)) 9 :=
  (congrFun ((dat1 (F := Ideal) V c).arrAt_eq_of_cover 5 _ (flushed5_eq V c) cover5) (ix2 0 j)).trans (outsAt_sum V c j 9 h9lt)

/-- The column sums of squares, likewise. -/
theorem final_sumsq (c : Dev nD) (j : Fin 128) :
    ((dat1 (F := Ideal) V c).arrAt 6 cfg1.N : S1x128.Idx → EReal) (ix2 0 j)
      = Cert.Spec.chain (fun t => ∑ r : Fin 5000, Cert.Spec.ext (fun i => h1 V c i j * h1 V c i j) (5000 * t + r.val)) 9 :=
  (congrFun ((dat1 (F := Ideal) V c).arrAt_eq_of_cover 6 _ (flushed6_eq V c) cover6) (ix2 0 j)).trans (outsAt_sumsq V c j 9 h9lt)

end Cert.KernelIdeal.Region1

end
-- ==== Proof.Region2.lean ====
/-
  The normalisation kernel's result array: row `i`, column `j` holds
  `prelu a ((x[i, j] − mean[0, j]) · rsqrt(var[0, j] + ε) · γ[0, j] + β[0, j])` — a pointwise function of the
  activations' block and of the five small operands, each 5000-row block written at its own point.
-/
import proofs.«154972_j25031069401690_1_alg».proof.Proof.Gen.KernelIdeal.Frame
import proofs.«154972_j25031069401690_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-- The reciprocal square root of a vector, read at an index. -/
theorem rsqrt_apply' {s : Shape} {φ : FTy} (x : FVec Ideal s φ) (i : s.Idx) : rsqrt x i = Ideal.rsqrt (x i) := rfl

/-- The one element of a `[1, 1]` vector. -/
theorem extract00 {α : Type} (v : S1x1.Idx → α) (h : ∀ a, (![0, 0] : Fin 2 → Nat) a < S1x1.size a) :
    extractAt ![0, 0] v h = v (ix2 0 0) :=
  congrArg v (funext fun a => match a with | ⟨0, _⟩ => rfl | ⟨1, _⟩ => rfl)

/-- The body's stored value at row `p`, column `q` of its block: the normalisation and the rectifier of the
    activations' element there and of the column's entries of the four row operands and the slope. -/
theorem pay_apply (v0 : Vec Ideal S5000x128 .f32) (v2 v7 v13 v17 : Vec Ideal S1x128 .f32) (v21 : Vec Ideal S1x1 .f32)
    (p : Fin 5000) (q : Fin 128) :
    (k2_pay1 v0 v2 v7 v13 v17 v21 : S5000x128.Idx → EReal) (ix2 p q)
      = Cert.Spec.bn (v0 (ix2 p q)) (v7 (ix2 0 q)) (v2 (ix2 0 q)) (v13 (ix2 0 q)) (v17 (ix2 0 q)) (v21 (ix2 0 0)) := by
  unfold k2_pay1
  simp only [shapeCast_self, select_apply, cmpf_apply, addf_apply, mulf_apply, subf_apply, broadcast_apply,
    broadcastTo_1b_ab_apply, rsqrt_apply', extract00]
  simp only [Cert.Spec.bn, Cert.Spec.prelu, Ideal.cmpf_def, Ideal.ofBits_def]

theorem hz2 : (![0, 0] : Fin 2 → Nat) = fun _ => 0 :=
  funext fun a => match a with | ⟨0, _⟩ => rfl | ⟨1, _⟩ => rfl

/-- The whole result array as one function of the six operand arrays. -/
def G (x : S50000x128.Idx → EReal) (mean var g bt : S1x128.Idx → EReal) (a : S1x1.Idx → EReal) :
    S50000x128.Idx → EReal :=
  fun i => Cert.Spec.bn (x i) (mean (ix2 0 (i 1))) (var (ix2 0 (i 1))) (g (ix2 0 (i 1))) (bt (ix2 0 (i 1))) (a (ix2 0 0))

/-- The index maps over the ten points: the activations' and the result's block index is the point itself on the rows
    and zero on the columns; the five small operands sit at block zero. -/
theorem idx_facts : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- An element of the activations' block sits in its array where the same element of the result's block sits in the result. -/
theorem emb0 (t : Fin cfg2.N) (p : Fin 5000) (q : Fin 128) :
    ((cfg2.win 0).blk t).view.emb (ix2 p q) = ((cfg2.win 6).blk t).view.emb (ix2 p q) := by
  obtain ⟨e00, e01, e60, e61, -⟩ := idx_facts t
  funext a; apply Fin.ext
  match a with
  | ⟨0, _⟩ => show win2_0.index t (0 : Fin 2) * 5000 + 1 * p.val = win2_6.index t (0 : Fin 2) * 5000 + 1 * p.val; omega
  | ⟨1, _⟩ => show win2_0.index t (1 : Fin 2) * 128 + 1 * q.val = win2_6.index t (1 : Fin 2) * 128 + 1 * q.val; omega

/-- Row `p` of block `t` is a row of the array. -/
theorem row_lt (t : Fin cfg2.N) (p : Fin 5000) : t.val * 5000 + p.val < 50000 := by
  have hN : cfg2.N = 10 := N_2
  have ht := t.isLt
  have hp := p.isLt
  omega

/-- Element `[p, q]` of the result's block at point `t` is element `[5000 t + p, q]` of the array. -/
theorem emb6 (t : Fin cfg2.N) (p : Fin 5000) (q : Fin 128) :
    ((cfg2.win 6).blk t).view.emb (ix2 p q) = ix2 ⟨t.val * 5000 + p.val, row_lt t p⟩ q := by
  obtain ⟨-, -, e60, e61, -⟩ := idx_facts t
  funext a; apply Fin.ext
  match a with
  | ⟨0, _⟩ => show win2_6.index t (0 : Fin 2) * 5000 + 1 * p.val = t.val * 5000 + p.val; omega
  | ⟨1, _⟩ => show win2_6.index t (1 : Fin 2) * 128 + 1 * q.val = q.val; omega

/-- A row operand's one block is the operand itself: element `[0, q]` sits at `[0, q]`. -/
theorem emb1 (t : Fin cfg2.N) (q : Fin 128) : ((cfg2.win 1).blk t).view.emb (ix2 0 q) = ix2 0 q := by
  obtain ⟨-, -, -, -, e10, e11, e20, e21, e30, e31, e40, e41, -⟩ := idx_facts t
  funext a; apply Fin.ext
  match a with
  | ⟨0, _⟩ => show win2_1.index t (0 : Fin 2) * 1 + 1 * 0 = 0; omega
  | ⟨1, _⟩ => show win2_1.index t (1 : Fin 2) * 128 + 1 * q.val = q.val; omega

theorem emb2 (t : Fin cfg2.N) (q : Fin 128) : ((cfg2.win 2).blk t).view.emb (ix2 0 q) = ix2 0 q := by
  obtain ⟨-, -, -, -, e10, e11, e20, e21, e30, e31, e40, e41, -⟩ := idx_facts t
  funext a; apply Fin.ext
  match a with
  | ⟨0, _⟩ => show win2_2.index t (0 : Fin 2) * 1 + 1 * 0 = 0; omega
  | ⟨1, _⟩ => show win2_2.index t (1 : Fin 2) * 128 + 1 * q.val = q.val; omega

theorem emb3 (t : Fin cfg2.N) (q : Fin 128) : ((cfg2.win 3).blk t).view.emb (ix2 0 q) = ix2 0 q := by
  obtain ⟨-, -, -, -, e10, e11, e20, e21, e30, e31, e40, e41, -⟩ := idx_facts t
  funext a; apply Fin.ext
  match a with
  | ⟨0, _⟩ => show win2_3.index t (0 : Fin 2) * 1 + 1 * 0 = 0; omega
  | ⟨1, _⟩ => show win2_3.index t (1 : Fin 2) * 128 + 1 * q.val = q.val; omega

theorem emb4 (t : Fin cfg2.N) (q : Fin 128) : ((cfg2.win 4).blk t).view.emb (ix2 0 q) = ix2 0 q := by
  obtain ⟨-, -, -, -, e10, e11, e20, e21, e30, e31, e40, e41, -⟩ := idx_facts t
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- The slope's one block is the slope itself. -/
theorem emb5 (t : Fin cfg2.N) : ((cfg2.win 5).blk t).view.emb (ix2 0 0) = ix2 0 0 := by
  obtain ⟨-, -, -, -, -, -, -, -, -, -, -, -, e50, e51⟩ := idx_facts t
  funext a; apply Fin.ext
  match a with
  | ⟨0, _⟩ => show win2_5.index t (0 : Fin 2) * 1 + 1 * 0 = 0; omega
  | ⟨1, _⟩ => show win2_5.index t (1 : Fin 2) * 1 + 1 * 0 = 0; omega

/-- The blocks read where the result's rectangle says: the activations' block at point `t` holds rows
    `5000 t … 5000 t + 4999`; each small operand's one block is the operand. -/
theorem read0 (c : Dev nD) (t : Fin cfg2.N) (p : Fin 5000) (q : Fin 128) :
    (iblk2 V c 0 t : S5000x128.Idx → EReal) (ix2 p q)
      = (V c main_v27_0 : S50000x128.Idx → EReal) (ix2 ⟨t.val * 5000 + p.val, row_lt t p⟩ q) := by
  show (V c main_v27_0 : S50000x128.Idx → EReal) (((cfg2.win 0).blk t).view.emb (ix2 p q)) = _
  rw [emb0, emb6]

theorem read1 (c : Dev nD) (t : Fin cfg2.N) (q : Fin 128) :
    (iblk2 V c 1 t : S1x128.Idx → EReal) (ix2 0 q) = (V c main_v29 : S1x128.Idx → EReal) (ix2 0 q) := by
  show (V c main_v29 : S1x128.Idx → EReal) (((cfg2.win 1).blk t).view.emb (ix2 0 q)) = _
  rw [emb1]

theorem read2 (c : Dev nD) (t : Fin cfg2.N) (q : Fin 128) :
    (iblk2 V c 2 t : S1x128.Idx → EReal) (ix2 0 q) = (V c main_v33 : S1x128.Idx → EReal) (ix2 0 q) := by
  show (V c main_v33 : S1x128.Idx → EReal) (((cfg2.win 2).blk t).view.emb (ix2 0 q)) = _
  rw [emb2]

theorem read3 (c : Dev nD) (t : Fin cfg2.N) (q : Fin 128) :
    (iblk2 V c 3 t : S1x128.Idx → EReal) (ix2 0 q) = (V c main_v34 : S1x128.Idx → EReal) (ix2 0 q) := by
  show (V c main_v34 : S1x128.Idx → EReal) (((cfg2.win 3).blk t).view.emb (ix2 0 q)) = _
  rw [emb3]

theorem read4 (c : Dev nD) (t : Fin cfg2.N) (q : Fin 128) :
    (iblk2 V c 4 t : S1x128.Idx → EReal) (ix2 0 q) = (V c main_v35 : S1x128.Idx → EReal) (ix2 0 q) := by
  show (V c main_v35 : S1x128.Idx → EReal) (((cfg2.win 4).blk t).view.emb (ix2 0 q)) = _
  rw [emb4]

theorem read5 (c : Dev nD) (t : Fin cfg2.N) :
    (iblk2 V c 5 t : S1x1.Idx → EReal) (ix2 0 0) = (V c main_v36 : S1x1.Idx → EReal) (ix2 0 0) := by
  show (V c main_v36 : S1x1.Idx → EReal) (((cfg2.win 5).blk t).view.emb (ix2 0 0)) = _
  rw [emb5]

/-- What point `t` writes back is block `t` of the one whole-array function. -/
theorem flushed_eq (c : Dev nD) (t : Fin cfg2.N) :
    (dat2 (F := Ideal) V c).flushed 6 t = ((cfg2.win 6).blk t).view.read (Elt Ideal)
      (G (V c main_v27_0) (V c main_v29) (V c main_v33) (V c main_v34) (V c main_v35) (V c main_v36)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S1x128) hz2, View.ld_unit_zero (S := S1x1) hz2]
  funext j
  obtain ⟨p, q, rfl⟩ : ∃ (p : Fin 5000) (q : Fin 128), j = ix2 p q := ⟨j 0, j 1, eq_ix2 (n0 := 5000) (n1 := 128) j⟩
  show (k2_pay1 (iblk2 V c 0 t) (iblk2 V c 2 t) (iblk2 V c 1 t) (iblk2 V c 3 t) (iblk2 V c 4 t) (iblk2 V c 5 t) : S5000x128.Idx → EReal) (ix2 p q)
    = G (V c main_v27_0) (V c main_v29) (V c main_v33) (V c main_v34) (V c main_v35) (V c main_v36) (((cfg2.win 6).blk t).view.emb (ix2 p q))
  rw [pay_apply, read0, read1, read2, read3, read4, read5, emb6]
  rfl

/-- An index of the array is in point `t`'s block iff each coordinate is in the block's range on its axis. -/
theorem mem_blk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v37).slice (win2_6.rect t)).set ↔ _
  rw [View.set_slice_whole, Rect.mem_set_unit]
  exact Iff.rfl

/-- The ten blocks tile the array: row `r` lies in the block of point `r / 5000`. -/
theorem cover (i : S50000x128.Idx) :
    ∃ t : Fin cfg2.N, (cfg2.win 6).flush t = true ∧ i ∈ ((cfg2.win 6).blk t).view.set := by
  have hN : cfg2.N = 10 := N_2
  have hi0 : (i 0).val < 50000 := (i 0).isLt
  have hi1 : (i 1).val < 128 := (i 1).isLt
  have ht : (i 0).val / 5000 < cfg2.N := by omega
  obtain ⟨-, -, e60, e61, -⟩ := idx_facts ⟨(i 0).val / 5000, ht⟩
  have e60' : win2_6.index ⟨(i 0).val / 5000, ht⟩ (0 : Fin 2) = (i 0).val / 5000 := e60
  refine ⟨⟨(i 0).val / 5000, ht⟩, flush2_6 _, ?_⟩
  rw [mem_blk]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    omega

/-- The result array after the region, read at `[i, j]`. -/
theorem final (c : Dev nD) (i : Fin 50000) (j : Fin 128) :
    ((dat2 (F := Ideal) V c).arrAt 6 cfg2.N : S50000x128.Idx → EReal) (ix2 i j)
      = Cert.Spec.bn ((V c main_v27_0 : S50000x128.Idx → EReal) (ix2 i j)) ((V c main_v29 : S1x128.Idx → EReal) (ix2 0 j))
          ((V c main_v33 : S1x128.Idx → EReal) (ix2 0 j)) ((V c main_v34 : S1x128.Idx → EReal) (ix2 0 j))
          ((V c main_v35 : S1x128.Idx → EReal) (ix2 0 j)) ((V c main_v36 : S1x1.Idx → EReal) (ix2 0 0)) := by
  have h := Dat.arrAt_eq_of_cover (dat2 (F := Ideal) V c) 6
    (G (V c main_v27_0) (V c main_v29) (V c main_v33) (V c main_v34) (V c main_v35) (V c main_v36))
    (fun t _ => flushed_eq V c t) cover
  exact congrFun h (ix2 i j)

end Cert.KernelIdeal.Region2

end
-- ==== Proof.Bridge.lean ====
/-
  The bridge: the kernel program's result array is the reference's result, element by element. Each array a region
  leaves is read as the reference's stage of the same name: the projection (a sum over `k` on both sides), the
  aggregate (the same gather and scatter-add applied to equal projections), the activation, its column sums (the
  kernel's ordered sum over ten row blocks is the plain sum), the mean, the variance (the kernel's mean of squares minus
  the squared mean is the reference's mean of squared deviations, because every activation is a real number under the
  precondition), and the normalised output.
-/
import proofs.«154972_j25031069401690_1_alg».proof.Defs
import proofs.«154972_j25031069401690_1_alg».proof.Proof.KRun
import proofs.«154972_j25031069401690_1_alg».proof.Proof.KHost
import proofs.«154972_j25031069401690_1_alg».proof.Proof.BridgeHost
import proofs.«154972_j25031069401690_1_alg».proof.Proof.Region0
import proofs.«154972_j25031069401690_1_alg».proof.Proof.Region1
import proofs.«154972_j25031069401690_1_alg».proof.Proof.Region2
import proofs.«154972_j25031069401690_1_alg».proof.Proof.RefSpec
import proofs.«154972_j25031069401690_1_alg».proof.Proof.RefFinite
import proofs.«154972_j25031069401690_1_alg».proof.Proof.Algebra
import proofs.«154972_j25031069401690_1_alg».proof.Proof.PreFinite
import Idealize.ShloMosaic.Lib.ValueIdx
import Idealize.ShloMosaic.Lib.ValueLayout
import Idealize.ShloMosaic.PureOps.Ideal.Laws

noncomputable section

set_option maxRecDepth 16384
open scoped BigOperators

namespace Cert.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The launch contents of the nine arguments. -/
abbrev A0 : FVec Ideal S50000x128 .f32 := m ((c : Thread nD τ).loc main_arg0)
abbrev A1 : IVec S800000 32 := m ((c : Thread nD τ).loc main_arg1)
abbrev A2 : IVec S800000 32 := m ((c : Thread nD τ).loc main_arg2)
abbrev A3 : FVec Ideal S128x128 .f32 := m ((c : Thread nD τ).loc main_arg3)
abbrev A4 : FVec Ideal S128 .f32 := m ((c : Thread nD τ).loc main_arg4)
abbrev A5 : FVec Ideal S1 .f32 := m ((c : Thread nD τ).loc main_arg5)
abbrev A6 : FVec Ideal S128 .f32 := m ((c : Thread nD τ).loc main_arg6)
abbrev A7 : FVec Ideal S128 .f32 := m ((c : Thread nD τ).loc main_arg7)
abbrev A8 : FVec Ideal S1 .f32 := m ((c : Thread nD τ).loc main_arg8)

/-! ## Region 0: the projection -/

/-- Region 0's result at the entry contents `V`, with the three operands named. -/
theorem proj_at (V : (c : Dev nD) → (b : Ref sig .tc) → Buf (Elt Ideal) ((c : Thread nD τ).loc b))
    (x0 : FVec Ideal S50000x128 .f32) (x10 : FVec Ideal S50000x1 .f32) (x3 : FVec Ideal S128x128 .f32)
    (h0 : V c main_arg0 = x0) (h10 : V c main_v10 = x10) (h3 : V c main_arg3 = x3) (i : Fin 50000) (j : Fin 128) :
    Region0.rd (S := S50000x128) (φ := .bf16) ((dat0 (F := Ideal) V c).arrAt 3 cfg0.N) (ix2 i j)
      = ∑ k : Fin 128, Region0.term (x0 (ix2 i k)) (x10 (ix2 i 0)) (x3 (ix2 k j)) := by
  subst h0 h10 h3
  exact Region0.final V c i j

/-- The projection the first kernel leaves is the reference's projection, as whole arrays (the kernel's array holds
    bf16 elements, the reference's f32: the same extended reals). -/
theorem proj_eq : W6 m ρ c (Proc.devRef .tc main_v13) = Cert.ReferenceIdeal.Read.val_main_v15 (F := Ideal) (A0 m c) (A1 m c) (A3 m c) := by
  funext idx
  rw [eq_ix2 idx]
  have hk := proj_at c (V5 m ρ) (A0 m c) (Cert.ReferenceIdeal.Read.val_main_v10 (F := Ideal) (A1 m c)) (A3 m c) (KHost.W5_arg0 m ρ c)
    ((KHost.W5_v10 m ρ c).trans (Cert.BridgeHost.norm_src _)) (KHost.W5_arg3 m ρ c) (idx 0) (idx 1)
  have hr := Cert.ReferenceIdeal.RefSpec.ref_h (A0 m c) (A1 m c) (A3 m c) (idx 0) (idx 1)
  have hw := congrFun (W6_arr m ρ c 3) (ix2 (idx 0) (idx 1))
  exact hw.trans (hk.trans hr.symm)

/-! ## The aggregate -/

/-- Widening a bf16 array to f32 is the identity on extended reals. -/
theorem extf_ideal {S : Shape} (x : FVec Ideal S .bf16) (h : FTy.bf16.bits < FTy.f32.bits) : extf .f32 x h = x := rfl

theorem agg_eq : W7 m ρ c (Proc.devRef .tc main_v24)
    = Cert.ReferenceIdeal.Read.val_main_v25 (F := Ideal) (A0 m c) (A1 m c) (A2 m c) (A3 m c) := by
  rw [KHost.W7_v24, proj_eq, Cert.BridgeHost.agg_chain, Cert.BridgeHost.v25_unfold, extf_ideal]

/-! ## Region 1: the activation and its column sums -/

/-- The activation the second kernel computes is the reference's activation. -/
theorem h1_eq (i : Fin 50000) (j : Fin 128) :
    Region1.h1 (V7 m ρ) c i j = Cert.ReferenceIdeal.Read.val_main_v36 (F := Ideal) (A0 m c) (A1 m c) (A2 m c) (A3 m c) (A4 m c) (A5 m c) (ix2 i j) := by
  unfold Region1.h1
  have e24 : V7 m ρ c main_v24 = Cert.ReferenceIdeal.Read.val_main_v25 (F := Ideal) (A0 m c) (A1 m c) (A2 m c) (A3 m c) := agg_eq m ρ c
  have e12 : V7 m ρ c main_v12 = Cert.ReferenceIdeal.Read.val_main_v12 (F := Ideal) (A2 m c) := (KHost.W7_v12 m ρ c).trans (Cert.BridgeHost.norm_dst _)
  have e25 : V7 m ρ c main_v25 = shapeCast S1x128 (A4 m c) shapeCasts_S128_S1x128 := KHost.W7_v25 m ρ c
  have e26 : V7 m ρ c main_v26 = shapeCast S1x1 (A5 m c) shapeCasts_S1_S1x1 := KHost.W7_v26 m ρ c
  rw [e24, e12, e25, e26, Cert.ReferenceIdeal.RefSpec.ref_h1]
  rw [shapeCast_a_1a_apply, shapeCast_a_1a_apply]

/-- The activations' array the second kernel leaves, read at `[i, j]`. -/
theorem act_arr (i : Fin 50000) (j : Fin 128) :
    (W8 m ρ c (Proc.devRef .tc main_v27_0) : S50000x128.Idx → EReal) (ix2 i j)
      = Cert.ReferenceIdeal.Read.val_main_v36 (F := Ideal) (A0 m c) (A1 m c) (A2 m c) (A3 m c) (A4 m c) (A5 m c) (ix2 i j) :=
  (congrFun (W8_arr m ρ c 4) (ix2 i j)).trans ((Region1.final_h1 (V7 m ρ) c i j).trans (h1_eq m ρ c i j))

/-- The column sums the second kernel leaves are the reference's column sums. -/
theorem sum_arr (j : Fin 128) :
    Region0.rd (S := S1x128) (φ := .f32) (W8 m ρ c (Proc.devRef .tc main_v27_1)) (ix2 0 j)
      = ∑ i : Fin 50000, Cert.ReferenceIdeal.Read.val_main_v36 (F := Ideal) (A0 m c) (A1 m c) (A2 m c) (A3 m c) (A4 m c) (A5 m c) (ix2 i j) := by
  have hw : Region0.rd (S := S1x128) (φ := .f32) (W8 m ρ c (Proc.devRef .tc main_v27_1)) (ix2 0 j)
      = Region0.rd (S := S1x128) (φ := .f32) ((dat1 (F := Ideal) (V7 m ρ) c).arrAt 5 cfg1.N) (ix2 0 j) :=
    congrFun (W8_arr m ρ c 5) (ix2 0 j)
  have hs : Region0.rd (S := S1x128) (φ := .f32) ((dat1 (F := Ideal) (V7 m ρ) c).arrAt 5 cfg1.N) (ix2 0 j)
      = Cert.Spec.chain (fun t => ∑ r : Fin 5000, Cert.Spec.ext (fun i => Region1.h1 (V7 m ρ) c i j) (5000 * t + r.val)) 9 :=
    Region1.final_sum (V7 m ρ) c j
  exact hw.trans (hs.trans ((Cert.Spec.chain_ext _).trans (Finset.sum_congr rfl fun i _ => h1_eq m ρ c i j)))

/-- The column sums of squares, likewise. -/
theorem sumsq_arr (j : Fin 128) :
    Region0.rd (S := S1x128) (φ := .f32) (W8 m ρ c (Proc.devRef .tc main_v27_2)) (ix2 0 j)
      = ∑ i : Fin 50000, Cert.ReferenceIdeal.Read.val_main_v36 (F := Ideal) (A0 m c) (A1 m c) (A2 m c) (A3 m c) (A4 m c) (A5 m c) (ix2 i j)
          * Cert.ReferenceIdeal.Read.val_main_v36 (F := Ideal) (A0 m c) (A1 m c) (A2 m c) (A3 m c) (A4 m c) (A5 m c) (ix2 i j) := by
  have hw : Region0.rd (S := S1x128) (φ := .f32) (W8 m ρ c (Proc.devRef .tc main_v27_2)) (ix2 0 j)
      = Region0.rd (S := S1x128) (φ := .f32) ((dat1 (F := Ideal) (V7 m ρ) c).arrAt 6 cfg1.N) (ix2 0 j) :=
    congrFun (W8_arr m ρ c 6) (ix2 0 j)
  have hs : Region0.rd (S := S1x128) (φ := .f32) ((dat1 (F := Ideal) (V7 m ρ) c).arrAt 6 cfg1.N) (ix2 0 j)
      = Cert.Spec.chain (fun t => ∑ r : Fin 5000,
          Cert.Spec.ext (fun i => Region1.h1 (V7 m ρ) c i j * Region1.h1 (V7 m ρ) c i j) (5000 * t + r.val)) 9 :=
    Region1.final_sumsq (V7 m ρ) c j
  exact hw.trans (hs.trans ((Cert.Spec.chain_ext _).trans
    (Finset.sum_congr rfl fun i _ => congrArg₂ (· * ·) (h1_eq m ρ c i j) (h1_eq m ρ c i j))))

/-! ## The statistics -/

/-- The divisor row reads 50000 everywhere. -/
theorem divisor_apply (j : Fin 128) : (KHost.divisor (F := Ideal) : S1x128.Idx → EReal) (ix2 0 j) = Cert.Spec.c50000 := rfl

/-- The kernel program's mean is the reference's. -/
theorem mean_eq (j : Fin 128) :
    (W9 m ρ c (Proc.devRef .tc main_v29) : S1x128.Idx → EReal) (ix2 0 j)
      = Cert.ReferenceIdeal.Read.val_main_v39 (F := Ideal) (A0 m c) (A1 m c) (A2 m c) (A3 m c) (A4 m c) (A5 m c) (ix1 j) := by
  rw [KHost.W9_v29, Cert.ReferenceIdeal.RefSpec.ref_mean, Cert.ReferenceIdeal.RefSpec.ref_sum]
  show Ideal.div (Region0.rd (S := S1x128) (φ := .f32) (W8 m ρ c (Proc.devRef .tc main_v27_1)) (ix2 0 j))
    ((KHost.divisor (F := Ideal) : S1x128.Idx → EReal) (ix2 0 j)) = _
  rw [sum_arr, divisor_apply]

/-- The kernel program's variance — the mean of squares minus the squared mean — is the reference's mean of squared
    deviations, every activation being a real number. -/
theorem var_eq (hreal : ∀ i : Fin 50000, ∀ j : Fin 128, Cert.Spec.IsReal
      (Cert.ReferenceIdeal.Read.val_main_v36 (F := Ideal) (A0 m c) (A1 m c) (A2 m c) (A3 m c) (A4 m c) (A5 m c) (ix2 i j))) (j : Fin 128) :
    (W9 m ρ c (Proc.devRef .tc main_v33) : S1x128.Idx → EReal) (ix2 0 j)
      = Cert.ReferenceIdeal.Read.val_main_v46 (F := Ideal) (A0 m c) (A1 m c) (A2 m c) (A3 m c) (A4 m c) (A5 m c) (ix1 j) := by
  rw [KHost.W9_v33, Cert.ReferenceIdeal.RefSpec.ref_var, Cert.ReferenceIdeal.RefSpec.ref_mean, Cert.ReferenceIdeal.RefSpec.ref_sum]
  show Ideal.div (Region0.rd (S := S1x128) (φ := .f32) (W8 m ρ c (Proc.devRef .tc main_v27_2)) (ix2 0 j)) ((KHost.divisor (F := Ideal) : S1x128.Idx → EReal) (ix2 0 j))
      - Ideal.div (Region0.rd (S := S1x128) (φ := .f32) (W8 m ρ c (Proc.devRef .tc main_v27_1)) (ix2 0 j)) ((KHost.divisor (F := Ideal) : S1x128.Idx → EReal) (ix2 0 j))
        * Ideal.div (Region0.rd (S := S1x128) (φ := .f32) (W8 m ρ c (Proc.devRef .tc main_v27_1)) (ix2 0 j)) ((KHost.divisor (F := Ideal) : S1x128.Idx → EReal) (ix2 0 j)) = _
  rw [sumsq_arr, sum_arr, divisor_apply]
  exact (Cert.Spec.var_identity _ fun i => hreal i j).symm

/-! ## Region 2: the result -/

/-- The result array of the kernel program is the reference's result, given that every activation is real. -/
theorem result_eq (hreal : ∀ i : Fin 50000, ∀ j : Fin 128, Cert.Spec.IsReal
      (Cert.ReferenceIdeal.Read.val_main_v36 (F := Ideal) (A0 m c) (A1 m c) (A2 m c) (A3 m c) (A4 m c) (A5 m c) (ix2 i j))) :
    W10 m ρ c (Proc.devRef .tc main_v37)
      = Cert.ReferenceIdeal.Read.val_main_v67 (F := Ideal) (A0 m c) (A1 m c) (A2 m c) (A3 m c) (A4 m c) (A5 m c) (A6 m c) (A7 m c) (A8 m c) := by
  funext idx
  obtain ⟨i, j, rfl⟩ : ∃ (i : Fin 50000) (j : Fin 128), idx = ix2 i j := ⟨idx 0, idx 1, eq_ix2 idx⟩
  refine (congrFun (W10_arr m ρ c 6) (ix2 i j)).trans ((Region2.final (V9 m ρ) c i j).trans ?_)
  have e0 : V9 m ρ c main_v27_0 = W8 m ρ c (Proc.devRef .tc main_v27_0) := KHost.W9_v27_0 m ρ c
  have e34 : V9 m ρ c main_v34 = shapeCast S1x128 (A6 m c) shapeCasts_S128_S1x128 := KHost.W9_v34 m ρ c
  have e35 : V9 m ρ c main_v35 = shapeCast S1x128 (A7 m c) shapeCasts_S128_S1x128 := KHost.W9_v35 m ρ c
  have e36 : V9 m ρ c main_v36 = shapeCast S1x1 (A8 m c) shapeCasts_S1_S1x1 := KHost.W9_v36 m ρ c
  rw [e0, e34, e35, e36, Cert.ReferenceIdeal.RefSpec.ref_out]
  rw [shapeCast_a_1a_apply, shapeCast_a_1a_apply, shapeCast_a_1a_apply]
  rw [act_arr m ρ c, ← mean_eq m ρ c, ← var_eq m ρ c hreal]

end Cert.Bridge

end
-- ==== Proof.lean ====
/-
  A graph-convolution layer with batch normalisation: node features scaled by the source-degree norm and projected
  by the weight matrix, the projections gathered along the edges and summed at the destinations, scaled by the
  destination-degree norm, biased and rectified; then normalised per column by the batch mean and variance, scaled,
  shifted and rectified again.

  The kernel program does the projection, the activation with its column sums and sums of squares, and the
  normalisation in three tiled kernels over ten blocks of 5000 rows, the degree counts, the gather and the
  scatter-add on the host; the reference is the same layer in plain array operations. Over the extended reals a
  change of float format is the identity and a tiled matrix product or a blockwise sum is the whole one, so the two
  programs differ in one place only: the kernel program takes the variance as the mean of squares minus the squared
  mean, the reference as the mean of squared deviations. These agree for real data, and under the precondition (every
  float input finite) every activation is a real number: degree counts are finite sums of ones, their clamped
  reciprocal square roots are real, and sums and products of reals are real.

  The three frames are the generated ones (the reference's is its run with the result dropped); the kernel program's
  run is taken once more with its result array named, and that array is read back region by region.
-/
import proofs.«154972_j25031069401690_1_alg».proof.Defs
import proofs.«154972_j25031069401690_1_alg».proof.Proof.Gen.Kernel
import proofs.«154972_j25031069401690_1_alg».proof.Proof.Gen.Kernel.Frame
import proofs.«154972_j25031069401690_1_alg».proof.Proof.Gen.KernelIdeal
import proofs.«154972_j25031069401690_1_alg».proof.Proof.Gen.KernelIdeal.Frame
import proofs.«154972_j25031069401690_1_alg».proof.Proof.Gen.ReferenceIdeal
import proofs.«154972_j25031069401690_1_alg».proof.Proof.Gen.Pre_finite_inputs
import proofs.«154972_j25031069401690_1_alg».proof.Proof.RefRun
import proofs.«154972_j25031069401690_1_alg».proof.Proof.RefRead
import proofs.«154972_j25031069401690_1_alg».proof.Proof.KRun
import proofs.«154972_j25031069401690_1_alg».proof.Proof.PreFinite
import proofs.«154972_j25031069401690_1_alg».proof.Proof.RefFinite
import proofs.«154972_j25031069401690_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the same result array: the kernel program's is the last region's output, which
    the bridge reads as the reference's last stage of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W10 m ρ c (Proc.devRef .tc Cert.KernelIdeal.main_v37),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h3, h4, h5⟩ := Cert.Pre_finite_inputs.Finite.real_of_pre _ _ _ _ _ _ _ _ _ (hpre c)
  have hreal := fun i j => Cert.ReferenceIdeal.RefFinite.h1_real _ (Cert.Bridge.A1 m c) (Cert.Bridge.A2 m c) _ _ _ h0 h3 h4 h5 i j
  rw [Cert.ReferenceIdeal.Read.val_main_v67_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.Bridge.result_eq m ρ c hreal).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
